-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x1x512 : Shape := ⟨3, ![2048, 1, 512]⟩
abbrev S2048 : Shape := ⟨1, ![2048]⟩
abbrev S512x256 : Shape := ⟨2, ![512, 256]⟩
abbrev S256 : Shape := ⟨1, ![256]⟩
abbrev S32x64x256 : Shape := ⟨3, ![32, 64, 256]⟩
abbrev S32x256 : Shape := ⟨2, ![32, 256]⟩
abbrev S32x512x256 : Shape := ⟨3, ![32, 512, 256]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x1x512 : S_.BroadcastsInDim S2048x1x512 (![] : Fin 0 → Fin S2048x1x512.rank)
  reducesTo_S2048x1x512_S_d0_1_2 : S2048x1x512.ReducesTo [0, 1, 2] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S32x64x256 : S_.BroadcastsInDim S32x64x256 (![] : Fin 0 → Fin S32x64x256.rank)
  reducesTo_S32x64x256_S_d0_1_2 : S32x64x256.ReducesTo [0, 1, 2] S_
  bcast_S_S32x256 : S_.BroadcastsInDim S32x256 (![] : Fin 0 → Fin S32x256.rank)
  reducesTo_S32x256_S_d0_1 : S32x256.ReducesTo [0, 1] S_
  bcast_S_S32x512x256 : S_.BroadcastsInDim S32x512x256 (![] : Fin 0 → Fin S32x512x256.rank)
  reducesTo_S32x512x256_S_d0_1_2 : S32x512x256.ReducesTo [0, 1, 2] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg2 : IVec S2048 32) (main_arg8 : FVec F S32x256 .f32) (main_v33 : IVec S_ 1) : IVec S_ 1 :=
  let main_v34 : FVec F S32x256 .f32 := Host.absf main_arg8
  let main_cst_12 : FVec F S_ .f32 := constant S_ .f32 0x7F800000#32
  let main_v35 : FVec F S32x256 .f32 := broadcastInDim S32x256 ![] bcast_S_S32x256 main_cst_12
  let main_v36 : IVec S32x256 1 := cmpf .olt main_v34 main_v35
  let main_c_13 : IVec S_ 1 := constantI S_ 1 1#1
  let main_v37 : IVec S_ 1 := (fun x v => Host.reduce IntOp.andi x v reducesTo_S32x256_S_d0_1 h_S_) main_v36 main_c_13
  let main_v38 : IVec S_ 1 := andi main_v33 main_v37
  let main_c_14 : IVec S_ 32 := constantI S_ 32 0#32
  let main_v39 : IVec S2048 32 := broadcastInDim S2048 ![] bcast_S_S2048 main_c_14
  let main_v40 : IVec S2048 1 := cmpi .sge main_arg2 main_v39
  let main_c_15 : IVec S_ 1 := constantI S_ 1 1#1
  let main_v41 : IVec S_ 1 := (fun x v => Host.reduce IntOp.andi x v reducesTo_S2048_S_d0 h_S_) main_v40 main_c_15
  let main_v42 : IVec S_ 1 := andi main_v38 main_v41
  let main_c_16 : IVec S_ 32 := constantI S_ 32 32#32
  let main_v43 : IVec S2048 32 := broadcastInDim S2048 ![] bcast_S_S2048 main_c_16
  let main_v44 : IVec S2048 1 := cmpi .slt main_arg2 main_v43
  let main_c_17 : IVec S_ 1 := constantI S_ 1 1#1
  let main_v45 : IVec S_ 1 := (fun x v => Host.reduce IntOp.andi x v reducesTo_S2048_S_d0 h_S_) main_v44 main_c_17
  let main_v46 : IVec S_ 1 := andi main_v42 main_v45
  main_v46

def fn_part1 {F : FTy → Type} [FloatOps F] (main_arg2 : IVec S2048 32) (main_arg5 : FVec F S32x64x256 .f32) (main_arg6 : FVec F S32x256 .f32) (main_arg7 : FVec F S32x512x256 .f32) (main_arg8 : FVec F S32x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S32x64x256 .f32 := Host.absf main_arg5
  let main_cst_6 : FVec F S_ .f32 := constant S_ .f32 0x7F800000#32
  let main_v20 : FVec F S32x64x256 .f32 := broadcastInDim S32x64x256 ![] bcast_S_S32x64x256 main_cst_6
  let main_v21 : IVec S32x64x256 1 := cmpf .olt main_v19 main_v20
  let main_c_7 : IVec S_ 1 := constantI S_ 1 1#1
  let main_v22 : IVec S_ 1 := (fun x v => Host.reduce IntOp.andi x v reducesTo_S32x64x256_S_d0_1_2 h_S_) main_v21 main_c_7
  let main_v23 : IVec S_ 1 := andi main_v18 main_v22
  let main_v24 : FVec F S32x256 .f32 := Host.absf main_arg6
  let main_cst_8 : FVec F S_ .f32 := constant S_ .f32 0x7F800000#32
  let main_v25 : FVec F S32x256 .f32 := broadcastInDim S32x256 ![] bcast_S_S32x256 main_cst_8
  let main_v26 : IVec S32x256 1 := cmpf .olt main_v24 main_v25
  let main_c_9 : IVec S_ 1 := constantI S_ 1 1#1
  let main_v27 : IVec S_ 1 := (fun x v => Host.reduce IntOp.andi x v reducesTo_S32x256_S_d0_1 h_S_) main_v26 main_c_9
  let main_v28 : IVec S_ 1 := andi main_v23 main_v27
  let main_v29 : FVec F S32x512x256 .f32 := Host.absf main_arg7
  let main_cst_10 : FVec F S_ .f32 := constant S_ .f32 0x7F800000#32
  let main_v30 : FVec F S32x512x256 .f32 := broadcastInDim S32x512x256 ![] bcast_S_S32x512x256 main_cst_10
  let main_v31 : IVec S32x512x256 1 := cmpf .olt main_v29 main_v30
  let main_c_11 : IVec S_ 1 := constantI S_ 1 1#1
  let main_v32 : IVec S_ 1 := (fun x v => Host.reduce IntOp.andi x v reducesTo_S32x512x256_S_d0_1_2 h_S_) main_v31 main_c_11
  let main_v33 : IVec S_ 1 := andi main_v28 main_v32
  fn_part2 (F := F) main_arg2 main_arg8 main_v33

def fn {F : FTy → Type} [FloatOps F] (main_arg0 : FVec F S2048x64 .f32) (main_arg1 : FVec F S2048x1x512 .f32) (main_arg2 : IVec S2048 32) (main_arg3 : FVec F S512x256 .f32) (main_arg4 : FVec F S256 .f32) (main_arg5 : FVec F S32x64x256 .f32) (main_arg6 : FVec F S32x256 .f32) (main_arg7 : FVec F S32x512x256 .f32) (main_arg8 : FVec F S32x256 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x1x512 .f32 := Host.absf main_arg1
  let main_cst_0 : FVec F S_ .f32 := constant S_ .f32 0x7F800000#32
  let main_v5 : FVec F S2048x1x512 .f32 := broadcastInDim S2048x1x512 ![] bcast_S_S2048x1x512 main_cst_0
  let main_v6 : IVec S2048x1x512 1 := cmpf .olt main_v4 main_v5
  let main_c_1 : IVec S_ 1 := constantI S_ 1 1#1
  let main_v7 : IVec S_ 1 := (fun x v => Host.reduce IntOp.andi x v reducesTo_S2048x1x512_S_d0_1_2 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_v13 main_v16
-- ==== Kernel.lean ====
abbrev S2048x64 : Shape := ⟨2, ![2048, 64]⟩
abbrev S2048x1x512 : Shape := ⟨3, ![2048, 1, 512]⟩
abbrev S2048 : Shape := ⟨1, ![2048]⟩
abbrev S512x256 : Shape := ⟨2, ![512, 256]⟩
abbrev S256 : Shape := ⟨1, ![256]⟩
abbrev S32x64x256 : Shape := ⟨3, ![32, 64, 256]⟩
abbrev S32x256 : Shape := ⟨2, ![32, 256]⟩
abbrev S32x512x256 : Shape := ⟨3, ![32, 512, 256]⟩
abbrev S_ : Shape := ⟨0, ![]⟩
abbrev S2048x1 : Shape := ⟨2, ![2048, 1]⟩
abbrev S2048x256 : Shape := ⟨2, ![2048, 256]⟩
abbrev S2048x128 : Shape := ⟨2, ![2048, 128]⟩
abbrev S2048x512 : Shape := ⟨2, ![2048, 512]⟩
abbrev S1x256 : Shape := ⟨2, ![1, 256]⟩
abbrev S32x128x256 : Shape := ⟨3, ![32, 128, 256]⟩
abbrev S4096x256 : Shape := ⟨2, ![4096, 256]⟩
abbrev S32x256x256 : Shape := ⟨3, ![32, 256, 256]⟩
abbrev S8192x256 : Shape := ⟨2, ![8192, 256]⟩
abbrev S128x1 : Shape := ⟨2, ![128, 1]⟩
abbrev S128x128 : Shape := ⟨2, ![128, 128]⟩
abbrev S128x512 : Shape := ⟨2, ![128, 512]⟩
abbrev S128x256 : Shape := ⟨2, ![128, 256]⟩
abbrev S128x4096 : Shape := ⟨2, ![128, 4096]⟩
abbrev S128x8192 : Shape := ⟨2, ![128, 8192]⟩
abbrev S2048x1x256 : Shape := ⟨3, ![2048, 1, 256]⟩

abbrev nBuf : Space → Nat
  | .hbm => 55
  | .vmem => 17
  | .smem => 0
  | _ => 0

abbrev bufTy : (tb : Table) → Fin (tcTables nBuf tb) → BufTy
  | .hbm, ⟨0, _⟩ => ⟨S2048x64, .f32⟩
  | .hbm, ⟨1, _⟩ => ⟨S2048x1x512, .f32⟩
  | .hbm, ⟨2, _⟩ => ⟨S2048, .i32⟩
  | .hbm, ⟨3, _⟩ => ⟨S512x256, .f32⟩
  | .hbm, ⟨4, _⟩ => ⟨S256, .f32⟩
  | .hbm, ⟨5, _⟩ => ⟨S32x64x256, .f32⟩
  | .hbm, ⟨6, _⟩ => ⟨S32x256, .f32⟩
  | .hbm, ⟨7, _⟩ => ⟨S32x512x256, .f32⟩
  | .hbm, ⟨8, _⟩ => ⟨S32x256, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048x256, .f32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048x1, .i32⟩
  | .hbm, ⟨34, _⟩ => ⟨S2048x256, .f32⟩
  | .hbm, ⟨35, _⟩ => ⟨S2048x1, .i32⟩
  | .hbm, ⟨36, _⟩ => ⟨S_, .i32⟩
  | .hbm, ⟨37, _⟩ => ⟨S_, .f32⟩
  | .hbm, ⟨38, _⟩ => ⟨S2048x128, .f32⟩
  | .hbm, ⟨39, _⟩ => ⟨S2048x512, .f32⟩
  | .hbm, ⟨40, _⟩ => ⟨S512x256, .bf16⟩
  | .hbm, ⟨41, _⟩ => ⟨S1x256, .f32⟩
  | .hbm, ⟨42, _⟩ => ⟨S_, .i32⟩
  | .hbm, ⟨43, _⟩ => ⟨S_, .f32⟩
  | .hbm, ⟨44, _⟩ => ⟨S32x128x256, .f32⟩
  | .hbm, ⟨45, _⟩ => ⟨S4096x256, .f32⟩
  | .hbm, ⟨46, _⟩ => ⟨S4096x256, .bf16⟩
  | .hbm, ⟨47, _⟩ => ⟨S32x256x256, .f32⟩
  | .hbm, ⟨48, _⟩ => ⟨S32x256x256, .f32⟩
  | .hbm, ⟨49, _⟩ => ⟨S8192x256, .f32⟩
  | .hbm, ⟨50, _⟩ => ⟨S8192x256, .bf16⟩
  | .hbm, ⟨51, _⟩ => ⟨S8192x256, .f32⟩
  | .hbm, ⟨52, _⟩ => ⟨S8192x256, .bf16⟩
  | .hbm, ⟨53, _⟩ => ⟨S2048x256, .f32⟩
  | .hbm, ⟨54, _⟩ => ⟨S2048x1x256, .f32⟩
  | .local _ .vmem, ⟨0, _⟩ => ⟨S128x1, .i32⟩
  | .local _ .vmem, ⟨1, _⟩ => ⟨S128x1, .i32⟩
  | .local _ .vmem, ⟨2, _⟩ => ⟨S128x128, .f32⟩
  | .local _ .vmem, ⟨3, _⟩ => ⟨S128x128, .f32⟩
  | .local _ .vmem, ⟨4, _⟩ => ⟨S128x512, .f32⟩
  | .local _ .vmem, ⟨5, _⟩ => ⟨S128x512, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S512x256, .bf16⟩
  | .local _ .vmem, ⟨11, _⟩ => ⟨S1x256, .f32⟩
  | .local _ .vmem, ⟨12, _⟩ => ⟨S4096x256, .bf16⟩
  | .local _ .vmem, ⟨13, _⟩ => ⟨S8192x256, .bf16⟩
  | .local _ .vmem, ⟨14, _⟩ => ⟨S8192x256, .bf16⟩
  | .local _ .vmem, ⟨15, _⟩ => ⟨S128x256, .f32⟩
  | .local _ .vmem, ⟨16, _⟩ => ⟨S128x256, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_c_1 : Ref sig .tc := ⟨.hbm, 17, rfl⟩
abbrev main_v1 : Ref sig .tc := ⟨.hbm, 18, rfl⟩
abbrev main_v2 : Ref sig .tc := ⟨.hbm, 19, rfl⟩
abbrev main_c_2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_3 : Ref sig .tc := ⟨.hbm, 26, rfl⟩
abbrev main_v8 : Ref sig .tc := ⟨.hbm, 27, rfl⟩
abbrev main_v9 : Ref sig .tc := ⟨.hbm, 28, rfl⟩
abbrev main_c_4 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_call1_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_6 : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8192x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8192x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  shapeCasts_S2048_S2048x1 : S2048.ShapeCasts S2048x1
  pads_S2048x64_S2048x128_000_0640 : S2048x64.Pads (![0, 0] : Fin 2 → Nat) ![0, 64] ![0, 0] S2048x128
  h_S_ : 0 < S_.numel
  shapeCasts_S2048x1x512_S2048x512 : S2048x1x512.ShapeCasts S2048x512
  bitsLt_bf16_f32 : FTy.bits .bf16 < FTy.bits .f32
  shapeCasts_S256_S1x256 : S256.ShapeCasts S1x256
  pads_S32x64x256_S32x128x256_000_0640_000 : S32x64x256.Pads (![0, 0, 0] : Fin 3 → Nat) ![0, 64, 0] ![0, 0, 0] S32x128x256
  shapeCasts_S32x128x256_S4096x256 : S32x128x256.ShapeCasts S4096x256
  slices_S32x512x256_S32x256x256_0_0_0 : S32x512x256.Slices ![0, 0, 0] S32x256x256
  slices_S32x512x256_S32x256x256_0_256_0 : S32x512x256.Slices ![0, 256, 0] S32x256x256
  shapeCasts_S32x256x256_S8192x256 : S32x256x256.ShapeCasts S8192x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x4096_d1 : Shape.Concatenates [S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128] S128x4096 1
  iota_S128x4096_d1_w32 : S128x4096.Iotas .tc 32 [1]
  natLt_1_32 : 1 < 32
  broadcasts_S128x1_S128x4096 : S128x1.Broadcasts S128x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x8192_d1 : Shape.Concatenates [S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256] S128x8192 1
  iota_S128x8192_d1_w32 : S128x8192.Iotas .tc 32 [1]
  broadcasts_S128x1_S128x8192 : S128x1.Broadcasts S128x8192
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  shapeCasts_S2048x256_S2048x1x256 : S2048x256.ShapeCasts S2048x1x256
  gather_S32x256_S2048x1_S2048x256_1_0_n_n_0_1_1256_wf : GatherDims.WF S32x256 S2048x1 S2048x256 [1] [0] [] [0] [] 1 ![1, 256]
  dot_S128x512_S512x256_S128x256_1_0_0_1_n_n_wf : DotDims.WF S128x512 S512x256 S128x256 [1] [0] [0] [1] [] []
  dot_S128x4096_S4096x256_S128x256_1_0_0_1_n_n_wf : DotDims.WF S128x4096 S4096x256 S128x256 [1] [0] [0] [1] [] []
  dot_S128x8192_S8192x256_S128x256_1_0_0_1_n_n_wf : DotDims.WF S128x8192 S8192x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S2048x1.size a
  hwx0_0 : ∀ i : grid0.Coords, EltTy.bits .i32 = 32 ∨ (Rect.block (s := S2048x1) S128x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S2048x128.size a
  hwx0_1 : ∀ i : grid0.Coords, EltTy.bits .f32 = 32 ∨ (Rect.block (s := S2048x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S2048x512.size a
  hwx0_2 : ∀ i : grid0.Coords, EltTy.bits .f32 = 32 ∨ (Rect.block (s := S2048x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S2048x256.size a
  hwx0_3 : ∀ i : grid0.Coords, EltTy.bits .f32 = 32 ∨ (Rect.block (s := S2048x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S2048x256.size a
  hwx0_4 : ∀ i : grid0.Coords, EltTy.bits .f32 = 32 ∨ (Rect.block (s := S2048x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S4096x256.size a
  hwx0_7 : ∀ i : grid0.Coords, EltTy.bits .bf16 = 32 ∨ (Rect.block (s := S4096x256) S4096x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8192x256.size a ≤ S8192x256.size a
  hwx0_8 : ∀ i : grid0.Coords, EltTy.bits .bf16 = 32 ∨ (Rect.block (s := S8192x256) S8192x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8192x256.size a ≤ S8192x256.size a
  hwx0_9 : ∀ i : grid0.Coords, EltTy.bits .bf16 = 32 ∨ (Rect.block (s := S8192x256) S8192x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x256.size a ≤ S2048x256.size a
  hwx0_10 : ∀ i : grid0.Coords, EltTy.bits .f32 = 32 ∨ (Rect.block (s := S2048x256) S128x256.size (cc0_transform_10 i) (hinb0_10 i)).WholeWords (EltTy.packing .f32)

variable [Facts₀]

def gather_S32x256_S2048x1_S2048x256_1_0_n_n_0_1_1256 : GatherDims S32x256 S2048x1 S2048x256 where
  offsetDims := [1]
  collapsedSliceDims := [0]
  operandBatchingDims := []
  startIndicesBatchingDims := []
  startIndexMap := [0]
  indexVectorDim := 1
  sliceSizes := ![1, 256]
  wf := gather_S32x256_S2048x1_S2048x256_1_0_n_n_0_1_1256_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf
def dot_S128x8192_S8192x256_S128x256_1_0_0_1_n_n : DotDims S128x8192 S8192x256 S128x256 where
  lhsContracting := [1]
  rhsContracting := [0]
  lhsNonContracting := [0]
  rhsNonContracting := [1]
  lhsBatch := []
  rhsBatch := []
  wf := dot_S128x8192_S8192x256_S128x256_1_0_0_1_n_n_wf

abbrev win0_0 : Pipeline.Window sig grid0 :=
  Pipeline.Window.ofSpec (Memref.whole main_v15) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S4096x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S8192x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S8192x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S128x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x1x512 : Shape := ⟨3, ![2048, 1, 512]⟩
abbrev S2048 : Shape := ⟨1, ![2048]⟩
abbrev S512x256 : Shape := ⟨2, ![512, 256]⟩
abbrev S256 : Shape := ⟨1, ![256]⟩
abbrev S32x64x256 : Shape := ⟨3, ![32, 64, 256]⟩
abbrev S32x256 : Shape := ⟨2, ![32, 256]⟩
abbrev S32x512x256 : Shape := ⟨3, ![32, 512, 256]⟩
abbrev S2048x1x256 : Shape := ⟨3, ![2048, 1, 256]⟩
abbrev S1x1x256 : Shape := ⟨3, ![1, 1, 256]⟩
abbrev S2048x1x64 : Shape := ⟨3, ![2048, 1, 64]⟩
abbrev S_ : Shape := ⟨0, ![]⟩
abbrev S2048x1 : Shape := ⟨2, ![2048, 1]⟩
abbrev S2048x64x256 : Shape := ⟨3, ![2048, 64, 256]⟩
abbrev S2048x256 : Shape := ⟨2, ![2048, 256]⟩
abbrev S2048x512x256 : Shape := ⟨3, ![2048, 512, 256]⟩

abbrev nBuf : Space → Nat
  | .hbm => 60
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x1x512, .f32⟩
  | .hbm, ⟨2, _⟩ => ⟨S2048, .i32⟩
  | .hbm, ⟨3, _⟩ => ⟨S512x256, .f32⟩
  | .hbm, ⟨4, _⟩ => ⟨S256, .f32⟩
  | .hbm, ⟨5, _⟩ => ⟨S32x64x256, .f32⟩
  | .hbm, ⟨6, _⟩ => ⟨S32x256, .f32⟩
  | .hbm, ⟨7, _⟩ => ⟨S32x512x256, .f32⟩
  | .hbm, ⟨8, _⟩ => ⟨S32x256, .f32⟩
  | .hbm, ⟨9, _⟩ => ⟨S2048x1x256, .f32⟩
  | .hbm, ⟨10, _⟩ => ⟨S1x1x256, .f32⟩
  | .hbm, ⟨11, _⟩ => ⟨S2048x1x256, .f32⟩
  | .hbm, ⟨12, _⟩ => ⟨S2048x1x256, .f32⟩
  | .hbm, ⟨13, _⟩ => ⟨S2048x1x64, .f32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S2048x64x256, .f32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S2048x1, .i32⟩
  | .hbm, ⟨31, _⟩ => ⟨S2048x256, .f32⟩
  | .hbm, ⟨32, _⟩ => ⟨S2048x1x256, .f32⟩
  | .hbm, ⟨33, _⟩ => ⟨S2048x1x256, .f32⟩
  | .hbm, ⟨34, _⟩ => ⟨S2048x1x256, .f32⟩
  | .hbm, ⟨35, _⟩ => ⟨S_, .f32⟩
  | .hbm, ⟨36, _⟩ => ⟨S2048x1x256, .f32⟩
  | .hbm, ⟨37, _⟩ => ⟨S2048x1x256, .f32⟩
  | .hbm, ⟨38, _⟩ => ⟨S2048x1x512, .f32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S2048x1, .i32⟩
  | .hbm, ⟨47, _⟩ => ⟨S2048x512x256, .f32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .i32⟩
  | .hbm, ⟨55, _⟩ => ⟨S2048x1, .i32⟩
  | .hbm, ⟨56, _⟩ => ⟨S2048x256, .f32⟩
  | .hbm, ⟨57, _⟩ => ⟨S2048x1x256, .f32⟩
  | .hbm, ⟨58, _⟩ => ⟨S2048x1x256, .f32⟩
  | .hbm, ⟨59, _⟩ => ⟨S2048x1x256, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_cst : Ref sig .tc := ⟨.hbm, 35, rfl⟩
abbrev main_call0_v0 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S2048x1x256_0_1_2 : S1x1x256.BroadcastsInDim S2048x1x256 (![0, 1, 2] : Fin 3 → Fin S2048x1x256.rank)
  bcast_S2048x64_S2048x1x64_0_2 : S2048x64.BroadcastsInDim S2048x1x64 (![0, 2] : Fin 2 → Fin S2048x1x64.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x256_S2048x1x256_0_2 : S2048x256.BroadcastsInDim S2048x1x256 (![0, 2] : Fin 2 → Fin S2048x1x256.rank)
  bcast_S_S2048x1x256 : S_.BroadcastsInDim S2048x1x256 (![] : Fin 0 → Fin S2048x1x256.rank)
  concatenates_S2048x1x256_S2048x1x256_S2048x1x512_d2 : Shape.Concatenates [S2048x1x256, S2048x1x256] S2048x1x512 2
  dot_S2048x1x512_S512x256_S2048x1x256_2_0_01_1_n_n_wf : DotDims.WF S2048x1x512 S512x256 S2048x1x256 [2] [0] [0, 1] [1] [] []
  gather_S32x64x256_S2048x1_S2048x64x256_12_0_n_n_0_1_164256_wf : GatherDims.WF S32x64x256 S2048x1 S2048x64x256 [1, 2] [0] [] [0] [] 1 ![1, 64, 256]
  gather_S32x256_S2048x1_S2048x256_1_0_n_n_0_1_1256_wf : GatherDims.WF S32x256 S2048x1 S2048x256 [1] [0] [] [0] [] 1 ![1, 256]
  dot_S2048x1x64_S2048x64x256_S2048x1x256_2_1_1_2_0_0_wf : DotDims.WF S2048x1x64 S2048x64x256 S2048x1x256 [2] [1] [1] [2] [0] [0]
  gather_S32x512x256_S2048x1_S2048x512x256_12_0_n_n_0_1_1512256_wf : GatherDims.WF S32x512x256 S2048x1 S2048x512x256 [1, 2] [0] [] [0] [] 1 ![1, 512, 256]
  dot_S2048x1x512_S2048x512x256_S2048x1x256_2_1_1_2_0_0_wf : DotDims.WF S2048x1x512 S2048x512x256 S2048x1x256 [2] [1] [1] [2] [0] [0]

variable [Facts₀]

def dot_S2048x1x512_S512x256_S2048x1x256_2_0_01_1_n_n : DotDims S2048x1x512 S512x256 S2048x1x256 where
  lhsContracting := [2]
  rhsContracting := [0]
  lhsNonContracting := [0, 1]
  rhsNonContracting := [1]
  lhsBatch := []
  rhsBatch := []
  wf := dot_S2048x1x512_S512x256_S2048x1x256_2_0_01_1_n_n_wf
def gather_S32x64x256_S2048x1_S2048x64x256_12_0_n_n_0_1_164256 : GatherDims S32x64x256 S2048x1 S2048x64x256 where
  offsetDims := [1, 2]
  collapsedSliceDims := [0]
  operandBatchingDims := []
  startIndicesBatchingDims := []
  startIndexMap := [0]
  indexVectorDim := 1
  sliceSizes := ![1, 64, 256]
  wf := gather_S32x64x256_S2048x1_S2048x64x256_12_0_n_n_0_1_164256_wf
def gather_S32x256_S2048x1_S2048x256_1_0_n_n_0_1_1256 : GatherDims S32x256 S2048x1 S2048x256 where
  offsetDims := [1]
  collapsedSliceDims := [0]
  operandBatchingDims := []
  startIndicesBatchingDims := []
  startIndexMap := [0]
  indexVectorDim := 1
  sliceSizes := ![1, 256]
  wf := gather_S32x256_S2048x1_S2048x256_1_0_n_n_0_1_1256_wf
def dot_S2048x1x64_S2048x64x256_S2048x1x256_2_1_1_2_0_0 : DotDims S2048x1x64 S2048x64x256 S2048x1x256 where
  lhsContracting := [2]
  rhsContracting := [1]
  lhsNonContracting := [1]
  rhsNonContracting := [2]
  lhsBatch := [0]
  rhsBatch := [0]
  wf := dot_S2048x1x64_S2048x64x256_S2048x1x256_2_1_1_2_0_0_wf
def gather_S32x512x256_S2048x1_S2048x512x256_12_0_n_n_0_1_1512256 : GatherDims S32x512x256 S2048x1 S2048x512x256 where
  offsetDims := [1, 2]
  collapsedSliceDims := [0]
  operandBatchingDims := []
  startIndicesBatchingDims := []
  startIndexMap := [0]
  indexVectorDim := 1
  sliceSizes := ![1, 512, 256]
  wf := gather_S32x512x256_S2048x1_S2048x512x256_12_0_n_n_0_1_1512256_wf
def dot_S2048x1x512_S2048x512x256_S2048x1x256_2_1_1_2_0_0 : DotDims S2048x1x512 S2048x512x256 S2048x1x256 where
  lhsContracting := [2]
  rhsContracting := [1]
  lhsNonContracting := [1]
  rhsNonContracting := [2]
  lhsBatch := [0]
  rhsBatch := [0]
  wf := dot_S2048x1x512_S2048x512x256_S2048x1x256_2_1_1_2_0_0_wf

class Facts : Prop extends Facts₀ where

variable [Facts]
-- ==== Proof.LibFloorDivMask.lean ====
/-
  Two word-level facts behind a "which group of D columns am I in" mask.

  A column number `j` and a group width `D`, both small non-negative 32-bit words: the signed quotient meets no corner of
  the division and is `j / D`; the lowered floor division (the quotient, less one when the signs differ and the
  remainder is not zero) is that same quotient, because a non-negative `j` against a positive `D` never has differing
  signs with a non-zero remainder. And the test "group number equals this word", widened to 32 bits and converted to a
  float, is exactly 1 or exactly 0 on the extended reals.
-/
import Idealize.ShloMosaic.PureOps.Ideal

namespace Idealize.ShloMosaic.FloorDivMask

open Idealize.ShloMosaic

theorem toNat_ofNat_small (n : ℕ) (h : n < 2 ^ 31) : (BitVec.ofNat 32 n).toNat = n := by
  rw [BitVec.toNat_ofNat]; exact Nat.mod_eq_of_lt (by omega)

theorem msb_ofNat_small (n : ℕ) (h : n < 2 ^ 31) : (BitVec.ofNat 32 n).msb = false :=
  BitVec.msb_eq_false_iff_two_mul_lt.mpr (by rw [toNat_ofNat_small n h]; omega)

theorem not_corner (j D : ℕ) (hD0 : 0 < D) (hD : D < 2 ^ 31) :
    ¬ IntOp.SDivCorner (BitVec.ofNat 32 j) (BitVec.ofNat 32 D) := by
  have hDn := toNat_ofNat_small D hD
  rintro (hc | ⟨_, hc⟩)
  · have := congrArg BitVec.toNat hc
    rw [hDn] at this
    simp at this
    omega
  · have := congrArg BitVec.toNat hc
    rw [hDn] at this
    simp at this
    omega

/-- The signed quotient of two small non-negative words is the quotient of the numbers. -/
theorem divsi_ofNat (u : ArithUnit) (j D : ℕ) (hj : j < 2 ^ 31) (hD0 : 0 < D) (hD : D < 2 ^ 31) :
    IntOp.divsi u (BitVec.ofNat 32 j) (BitVec.ofNat 32 D) = BitVec.ofNat 32 (j / D) := by
  have hjn := toNat_ofNat_small j hj
  have hDn := toNat_ofNat_small D hD
  have hq : j / D < 2 ^ 31 := lt_of_le_of_lt (Nat.div_le_self j D) hj
  apply BitVec.eq_of_toNat_eq
  rw [toNat_ofNat_small _ hq]
  simp only [IntOp.divsi, if_neg (not_corner j D hD0 hD), BitVec.sdiv_eq, msb_ofNat_small j hj, msb_ofNat_small D hD,
    BitVec.udiv_eq, BitVec.toNat_udiv, hjn, hDn]

/-- The signed remainder of zero is zero. -/
theorem remsi_zero (u : ArithUnit) (D : ℕ) (hD0 : 0 < D) (hD : D < 2 ^ 31) :
    IntOp.remsi u (BitVec.ofNat 32 0) (BitVec.ofNat 32 D) = 0#32 := by
  apply BitVec.eq_of_toNat_eq
  simp only [IntOp.remsi, if_neg (not_corner 0 D hD0 hD), BitVec.srem_eq, msb_ofNat_small 0 (by omega), msb_ofNat_small D hD,
    BitVec.umod_eq, BitVec.toNat_umod, toNat_ofNat_small 0 (by omega), BitVec.toNat_ofNat]
  simp

/-- The lowered floor division of a small non-negative word by a small positive one is the quotient of the numbers. -/
theorem floordiv_ofNat (u : ArithUnit) (j D : ℕ) (hj : j < 2 ^ 31) (hD0 : 0 < D) (hD : D < 2 ^ 31) (sD : BitVec 32)
    (hs : sD = 1#32) :
    Scalar.select (IntOp.andi (IntOp.cmpi .ne (IntOp.subi ((IntOp.cmpi .sgt (BitVec.ofNat 32 j) 0#32).setWidth 32)
          ((IntOp.cmpi .slt (BitVec.ofNat 32 j) 0#32).setWidth 32)) sD)
        (IntOp.cmpi .ne (IntOp.remsi u (BitVec.ofNat 32 j) (BitVec.ofNat 32 D)) 0#32))
      (IntOp.subi (IntOp.divsi u (BitVec.ofNat 32 j) (BitVec.ofNat 32 D)) 1#32)
      (IntOp.divsi u (BitVec.ofNat 32 j) (BitVec.ofNat 32 D))
    = BitVec.ofNat 32 (j / D) := by
  rw [divsi_ofNat u j D hj hD0 hD]
  have hcond : IntOp.andi (IntOp.cmpi .ne (IntOp.subi ((IntOp.cmpi .sgt (BitVec.ofNat 32 j) 0#32).setWidth 32)
          ((IntOp.cmpi .slt (BitVec.ofNat 32 j) 0#32).setWidth 32)) sD)
        (IntOp.cmpi .ne (IntOp.remsi u (BitVec.ofNat 32 j) (BitVec.ofNat 32 D)) 0#32) = 0#1 := by
    subst hs
    by_cases h0 : j = 0
    · subst h0
      rw [remsi_zero u D hD0 hD]
      simp [IntOp.andi, IntOp.cmpi]
    · have hti : (BitVec.ofNat 32 j).toInt = (j : ℤ) := by
        rw [BitVec.toInt_eq_toNat_of_msb (msb_ofNat_small j hj), toNat_ofNat_small j hj]
      have hgt : (0#32 : BitVec 32).slt (BitVec.ofNat 32 j) = true := by
        simp only [BitVec.slt, hti, decide_eq_true_eq]
        have : (0#32 : BitVec 32).toInt = 0 := by decide
        rw [this]; omega
      have hlt : (BitVec.ofNat 32 j).slt (0#32 : BitVec 32) = false := by
        simp only [BitVec.slt, hti, decide_eq_false_iff_not]
        have : (0#32 : BitVec 32).toInt = 0 := by decide
        rw [this]; omega
      simp only [IntOp.cmpi, hgt, hlt]
      simp [IntOp.andi, IntOp.subi]
  rw [hcond]
  simp [Scalar.select]

/-- "This small number equals that word", widened and converted to a float, is one or zero. -/
theorem sitofp_cmpi_eq_ofNat (q : ℕ) (hq : q < 2 ^ 32) (x : BitVec 32) :
    FloatOps.sitofp (F := Ideal) .f32 ((IntOp.cmpi .eq (BitVec.ofNat 32 q) x).setWidth 32)
      = if q = x.toNat then (1 : EReal) else 0 := by
  show ((((IntOp.cmpi .eq (BitVec.ofNat 32 q) x).setWidth 32).toInt : ℝ) : EReal) = _
  by_cases h : q = x.toNat
  · have e : BitVec.ofNat 32 q = x := by
      rw [h]; apply BitVec.eq_of_toNat_eq; rw [BitVec.toNat_ofNat]; exact Nat.mod_eq_of_lt x.isLt
    rw [if_pos h, e]
    simp [IntOp.cmpi]
  · have e : (BitVec.ofNat 32 q == x) = false := by
      rw [beq_eq_false_iff_ne]
      intro e
      have := congrArg BitVec.toNat e
      rw [BitVec.toNat_ofNat, Nat.mod_eq_of_lt hq] at this
      exact h this
    rw [if_neg h]
    simp only [IntOp.cmpi, e]
    simp

end Idealize.ShloMosaic.FloorDivMask
-- ==== Proof.LibColBroadcast.lean ====
/-
  A column broadcast over many columns, read at an index (the companion of the library's one-row form
  `broadcastTo_1b_ab_apply`), and a compare of two small naturals as 32-bit words.
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two naturals below 2³² differ as 32-bit words exactly when they differ. -/
theorem cmpi_ne_ofNat (a b : ℕ) (ha : a < 2 ^ 32) (hb : b < 2 ^ 32) :
    IntOp.cmpi .ne (BitVec.ofNat 32 a) (BitVec.ofNat 32 b) = if a = b then 0#1 else 1#1 := by
  unfold IntOp.cmpi
  by_cases h : a = b
  · rw [if_pos h, h]; simp
  · rw [if_neg h]
    have hb' : (BitVec.ofNat 32 a != BitVec.ofNat 32 b) = true := by
      rw [bne_iff_ne]
      intro e
      have := congrArg BitVec.toNat e
      simp only [BitVec.toNat_ofNat] at this
      rw [Nat.mod_eq_of_lt ha, Nat.mod_eq_of_lt hb] at this
      exact h this
    simp [hb']

end Idealize.ShloMosaic.ValueIdx
-- ==== Proof.LibMatmulSum.lean ====
/-
  A matrix product into a zero accumulator, read at an entry, on the extended reals.

  For a product of an [A, K] array with a [K, B] array whose dimension numbers contract the left operand's axis 1 with the
  right operand's axis 0, entry (p, o) is the sum over the K shared positions of left (p, k) times right (k, o). The
  dimension numbers enter only through four facts about where the product reads its operands (left axis 0 from the
  result's row, left axis 1 and right axis 0 from the contracted position, right axis 1 from the result's column); a
  caller proves them for its own record of dimension numbers.
-/
import Idealize.ShloMosaic.Lib.ValueIdx
import Idealize.ShloMosaic.PureOps.Ideal.Laws

noncomputable section

namespace Idealize.ShloMosaic.MatmulSum

open Idealize.ShloMosaic Idealize.ShloMosaic.ValueIdx

/-- Entry (p, o) of the product into zero is the sum over the contracted axis. -/
theorem matmul_zero_rank2_apply {A K B : ℕ} {φ₁ φ₂ : FTy}
    (d : DotDims (⟨2, ![A, K]⟩ : Shape) (⟨2, ![K, B]⟩ : Shape) (⟨2, ![A, B]⟩ : Shape)) (hr : d.contr.rank = 1)
    (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (l : FVec Ideal (⟨2, ![A, K]⟩ : Shape) φ₁) (r : FVec Ideal (⟨2, ![K, B]⟩ : Shape) φ₂)
    (p : Fin A) (o : Fin B) :
    FloatOps.matmul d prec l r (constant (⟨2, ![A, B]⟩ : Shape) .f32 0x00000000#32) (ix2 p o)
      = ∑ k : Fin K, l (ix2 p k) * r (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Idealize.ShloMosaic.MatmulSum

end
-- ==== Proof.MatmulSums.lean ====
/-
  The kernel's three matrix products as plain sums on the extended reals: entry (p, o) of a [128, K] block times a
  [K, 256] table, accumulated into zero, is the sum over the K shared positions of left (p, k) times right (k, o), for
  K = 512 (the observation's layer), K = 4096 (the state's layer over the merged category axis) and K = 8192 (each half of
  the last layer). For each product's own dimension numbers the four reading facts are checked, and the general lemma
  for a rank-two product does the rest.
-/
import proofs.«411071_j61821759259471_3_alg».proof.Proof.Gen.KernelIdeal
import proofs.«411071_j61821759259471_3_alg».proof.Proof.LibMatmulSum

noncomputable section

namespace Cert.KernelIdeal.MatmulSums

open Cert.KernelIdeal Cert.KernelIdeal.Gen Idealize.ShloMosaic Idealize.ShloMosaic.ValueIdx

/-! ## K = 512: the observation block times the shared table -/

theorem obs_l0 (i : S128x256.Idx) (q : dot_S128x512_S512x256_S128x256_1_0_0_1_n_n.contr.Idx) :
    (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch by decide),
    dif_pos (show (0 : Fin S128x512.rank) ∈ dot_S128x512_S512x256_S128x256_1_0_0_1_n_n.lhsNonContracting by decide)]
  rfl
theorem obs_l1 (i : S128x256.Idx) (q : dot_S128x512_S512x256_S128x256_1_0_0_1_n_n.contr.Idx) :
    (dot_S128x512_S512x256_S128x256_1_0_0_1_n_n.lhsIdx i q 1).val = (q ⟨0, by decide⟩).val :=
  dot_S128x512_S512x256_S128x256_1_0_0_1_n_n.lhsIdx_val_of_single rfl i q
theorem obs_r0 (i : S128x256.Idx) (q : dot_S128x512_S512x256_S128x256_1_0_0_1_n_n.contr.Idx) :
    (dot_S128x512_S512x256_S128x256_1_0_0_1_n_n.rhsIdx i q 0).val = (q ⟨0, by decide⟩).val :=
  dot_S128x512_S512x256_S128x256_1_0_0_1_n_n.rhsIdx_val_of_single rfl i q
theorem obs_r1 (i : S128x256.Idx) (q : dot_S128x512_S512x256_S128x256_1_0_0_1_n_n.contr.Idx) :
    (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch by decide),
    dif_pos (show (1 : Fin S512x256.rank) ∈ dot_S128x512_S512x256_S128x256_1_0_0_1_n_n.rhsNonContracting by decide)]
  rfl

/-- The observation's product at (p, e). -/
theorem matmulObs_apply {φ₁ φ₂ : FTy} (l : FVec Ideal S128x512 φ₁) (r : FVec Ideal S512x256 φ₂) (p : Fin 128) (e : Fin 256) :
    FloatOps.matmul dot_S128x512_S512x256_S128x256_1_0_0_1_n_n none l r (constant S128x256 .f32 0x00000000#32) (ix2 p e)
      = ∑ k : Fin 512, l (ix2 p k) * r (ix2 k e) :=
  MatmulSum.matmul_zero_rank2_apply dot_S128x512_S512x256_S128x256_1_0_0_1_n_n rfl rfl obs_l0 obs_l1 obs_r0 obs_r1 none l r p e

/-! ## K = 4096: the masked, tiled state block times the merged per-category table -/

theorem st_l0 (i : S128x256.Idx) (q : dot_S128x4096_S4096x256_S128x256_1_0_0_1_n_n.contr.Idx) :
    (dot_S128x4096_S4096x256_S128x256_1_0_0_1_n_n.lhsIdx i q 0).val = (i 0).val := by
  unfold DotDims.lhsIdx
  rw [dif_neg (show ¬(0 : Fin S128x4096.rank) ∈ dot_S128x4096_S4096x256_S128x256_1_0_0_1_n_n.lhsBatch by decide),
    dif_pos (show (0 : Fin S128x4096.rank) ∈ dot_S128x4096_S4096x256_S128x256_1_0_0_1_n_n.lhsNonContracting by decide)]
  rfl
theorem st_l1 (i : S128x256.Idx) (q : dot_S128x4096_S4096x256_S128x256_1_0_0_1_n_n.contr.Idx) :
    (dot_S128x4096_S4096x256_S128x256_1_0_0_1_n_n.lhsIdx i q 1).val = (q ⟨0, by decide⟩).val :=
  dot_S128x4096_S4096x256_S128x256_1_0_0_1_n_n.lhsIdx_val_of_single rfl i q
theorem st_r0 (i : S128x256.Idx) (q : dot_S128x4096_S4096x256_S128x256_1_0_0_1_n_n.contr.Idx) :
    (dot_S128x4096_S4096x256_S128x256_1_0_0_1_n_n.rhsIdx i q 0).val = (q ⟨0, by decide⟩).val :=
  dot_S128x4096_S4096x256_S128x256_1_0_0_1_n_n.rhsIdx_val_of_single rfl i q
theorem st_r1 (i : S128x256.Idx) (q : dot_S128x4096_S4096x256_S128x256_1_0_0_1_n_n.contr.Idx) :
    (dot_S128x4096_S4096x256_S128x256_1_0_0_1_n_n.rhsIdx i q 1).val = (i 1).val := by
  unfold DotDims.rhsIdx
  rw [dif_neg (show ¬(1 : Fin S4096x256.rank) ∈ dot_S128x4096_S4096x256_S128x256_1_0_0_1_n_n.rhsBatch by decide),
    dif_pos (show (1 : Fin S4096x256.rank) ∈ dot_S128x4096_S4096x256_S128x256_1_0_0_1_n_n.rhsNonContracting by decide)]
  rfl

/-- The state's product at (p, e). -/
theorem matmulState_apply {φ₁ φ₂ : FTy} (l : FVec Ideal S128x4096 φ₁) (r : FVec Ideal S4096x256 φ₂) (p : Fin 128) (e : Fin 256) :
    FloatOps.matmul dot_S128x4096_S4096x256_S128x256_1_0_0_1_n_n none l r (constant S128x256 .f32 0x00000000#32) (ix2 p e)
      = ∑ k : Fin 4096, l (ix2 p k) * r (ix2 k e) :=
  MatmulSum.matmul_zero_rank2_apply dot_S128x4096_S4096x256_S128x256_1_0_0_1_n_n rfl rfl st_l0 st_l1 st_r0 st_r1 none l r p e

/-! ## K = 8192: a masked, tiled embedding block times one half of the last layer's merged table -/

theorem l2_l0 (i : S128x256.Idx) (q : dot_S128x8192_S8192x256_S128x256_1_0_0_1_n_n.contr.Idx) :
    (dot_S128x8192_S8192x256_S128x256_1_0_0_1_n_n.lhsIdx i q 0).val = (i 0).val := by
  unfold DotDims.lhsIdx
  rw [dif_neg (show ¬(0 : Fin S128x8192.rank) ∈ dot_S128x8192_S8192x256_S128x256_1_0_0_1_n_n.lhsBatch by decide),
    dif_pos (show (0 : Fin S128x8192.rank) ∈ dot_S128x8192_S8192x256_S128x256_1_0_0_1_n_n.lhsNonContracting by decide)]
  rfl
theorem l2_l1 (i : S128x256.Idx) (q : dot_S128x8192_S8192x256_S128x256_1_0_0_1_n_n.contr.Idx) :
    (dot_S128x8192_S8192x256_S128x256_1_0_0_1_n_n.lhsIdx i q 1).val = (q ⟨0, by decide⟩).val :=
  dot_S128x8192_S8192x256_S128x256_1_0_0_1_n_n.lhsIdx_val_of_single rfl i q
theorem l2_r0 (i : S128x256.Idx) (q : dot_S128x8192_S8192x256_S128x256_1_0_0_1_n_n.contr.Idx) :
    (dot_S128x8192_S8192x256_S128x256_1_0_0_1_n_n.rhsIdx i q 0).val = (q ⟨0, by decide⟩).val :=
  dot_S128x8192_S8192x256_S128x256_1_0_0_1_n_n.rhsIdx_val_of_single rfl i q
theorem l2_r1 (i : S128x256.Idx) (q : dot_S128x8192_S8192x256_S128x256_1_0_0_1_n_n.contr.Idx) :
    (dot_S128x8192_S8192x256_S128x256_1_0_0_1_n_n.rhsIdx i q 1).val = (i 1).val := by
  unfold DotDims.rhsIdx
  rw [dif_neg (show ¬(1 : Fin S8192x256.rank) ∈ dot_S128x8192_S8192x256_S128x256_1_0_0_1_n_n.rhsBatch by decide),
    dif_pos (show (1 : Fin S8192x256.rank) ∈ dot_S128x8192_S8192x256_S128x256_1_0_0_1_n_n.rhsNonContracting by decide)]
  rfl

/-- One half of the last layer's product at (p, o). -/
theorem matmulLast_apply {φ₁ φ₂ : FTy} (l : FVec Ideal S128x8192 φ₁) (r : FVec Ideal S8192x256 φ₂) (p : Fin 128) (o : Fin 256) :
    FloatOps.matmul dot_S128x8192_S8192x256_S128x256_1_0_0_1_n_n none l r (constant S128x256 .f32 0x00000000#32) (ix2 p o)
      = ∑ k : Fin 8192, l (ix2 p k) * r (ix2 k o) :=
  MatmulSum.matmul_zero_rank2_apply dot_S128x8192_S8192x256_S128x256_1_0_0_1_n_n rfl rfl l2_l0 l2_l1 l2_r0 l2_r1 none l r p o

end Cert.KernelIdeal.MatmulSums

end
-- ==== Proof.PayloadPieces.lean ====
/-
  The pieces of the kernel body's arithmetic, each read at one entry, on the extended reals.

  * The column-group word: column `j` of a [128, 4096] tile lies in group `j / 128`.
  * The selector: at (p, j) of a [128, 8192] tile it is 1 when group `j / 256` is row p's category word and 0 otherwise.
  * A tiling of a [128, D] block 32 times along the columns reads, at column `j`, the block's column `j % D`.
  * The observation's layer at (p, e) is the sum over the 512 inputs of observation times weight, plus the bias row.
-/
import proofs.«411071_j61821759259471_3_alg».proof.Proof.Gen.KernelIdeal.Skeleton
import proofs.«411071_j61821759259471_3_alg».proof.Proof.LibFloorDivMask
import proofs.«411071_j61821759259471_3_alg».proof.Proof.LibColBroadcast
import proofs.«411071_j61821759259471_3_alg».proof.Proof.MatmulSums
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx

/-- Column `j` of the [128, 4096] tile lies in group `j / 128`. -/
theorem group128_apply (p : Fin 128) (j : Fin 4096) : k0_pay5 (ix2 p j) = BitVec.ofNat 32 (j.val / 128) := by
  unfold k0_pay5
  dsimp only [select, cmpi, divsi, remsi, subi, andi, extui, broadcast]
  rw [iota_single_apply]
  exact FloorDivMask.floordiv_ofNat .vector j.val 128 (by have := j.isLt; omega) (by omega) (by omega) _ (by decide)

/-- The selector over the [128, 8192] tile: 1 where the column's group of 256 is the row's category word, else 0. -/
theorem selector256_apply (v1 : IVec S128x1 32) (p : Fin 128) (j : Fin 8192) :
    k0_pay8 (F := Ideal) v1 (ix2 p j) = if j.val / 256 = (v1 (ix2 p (0 : Fin 1))).toNat then (1 : EReal) else 0 := by
  unfold k0_pay8
  dsimp only [sitofp, select, cmpi, divsi, remsi, subi, andi, extui, broadcast]
  rw [iota_single_apply, broadcastTo_a1_ab_apply]
  refine (congrArg (fun w => FloatOps.sitofp (F := Ideal) .f32 ((IntOp.cmpi .eq w (v1 (ix2 p (0 : Fin 1)))).setWidth 32))
    (FloorDivMask.floordiv_ofNat .vector j.val 256 (by have := j.isLt; omega) (by omega) (by omega) _ (by decide))).trans ?_
  exact FloorDivMask.sitofp_cmpi_eq_ofNat (j.val / 256) (by have := j.isLt; omega) _

/-- The state block tiled 32 times along its 128 columns reads, at column `j`, the block's column `j % 128`. -/
theorem tile128_apply (v12 : FVec Ideal S128x128 .f32) (p : Fin 128) (j : Fin 4096) :
    k0_pay4 (F := Ideal) v12 (ix2 p j) = v12 (ix2 p (⟨j.val % 128, Nat.mod_lt _ (by omega)⟩ : Fin 128)) := by
  unfold k0_pay4
  show concatenate S128x4096 1 (List.replicate 32 ⟨S128x128, truncf (F := Ideal) .bf16 (shapeCast S128x128 v12 shapeCasts_S128x128_S128x128) bitsLt_bf16_f32⟩) _ (ix2 p j) = _
  rw [concatenate_replicate_apply (t := S128x4096) (s₁ := S128x128) 1 32 _ _ rfl (ix2 p j) (ix2 p (⟨j.val % 128, Nat.mod_lt _ (by omega)⟩ : Fin 128)) rfl
    (fun b hb => by
      match b, hb with
      | ⟨0, _⟩, _ => rfl
      | ⟨1, _⟩, hb => exact absurd rfl hb)]
  rw [truncf_apply, shapeCast_self]

/-- An embedding block tiled 32 times along its 256 columns reads, at column `j`, the block's column `j % 256`. -/
theorem tile256_apply (v11 : FVec Ideal S128x256 .f32) (p : Fin 128) (j : Fin 8192) :
    k0_pay7 (F := Ideal) v11 (ix2 p j) = v11 (ix2 p (⟨j.val % 256, Nat.mod_lt _ (by omega)⟩ : Fin 256)) := by
  unfold k0_pay7
  show concatenate S128x8192 1 (List.replicate 32 ⟨S128x256, truncf (F := Ideal) .bf16 v11 bitsLt_bf16_f32⟩) _ (ix2 p j) = _
  rw [concatenate_replicate_apply (t := S128x8192) (s₁ := S128x256) 1 32 _ _ rfl (ix2 p j) (ix2 p (⟨j.val % 256, Nat.mod_lt _ (by omega)⟩ : Fin 256)) rfl
    (fun b hb => by
      match b, hb with
      | ⟨0, _⟩, _ => rfl
      | ⟨1, _⟩, hb => exact absurd rfl hb)]
  rw [truncf_apply]

/-- The observation's layer at (p, e). -/
theorem obsLayer_apply (v2 : FVec Ideal S128x512 .f32) (v5 : FVec Ideal S512x256 .bf16) (v8 : FVec Ideal S1x256 .f32) (p : Fin 128)
    (e : Fin 256) :
    k0_pay3 (F := Ideal) v2 v5 v8 (ix2 p e) = (∑ k : Fin 512, v2 (ix2 p k) * v5 (ix2 k e)) + v8 (ix2 (0 : Fin 1) e) := by
  unfold k0_pay3
  simp only [matmul]
  rw [addf_apply, MatmulSums.matmulObs_apply, broadcastTo_1b_ab_apply]
  simp only [truncf_apply, shapeCast_self]

end Cert.KernelIdeal.Payload

end
-- ==== Proof.LibOneHotSum.lean ====
/-
  A sum over a merged axis against a one-hot selector, on the extended reals.

  An axis of extent `C · D` is `C` groups of `D` positions, group-major: position `j` is place `j % D` of group `j / D`.
  If the left factor at `j` is `f (j % D)` times the indicator of `j / D = c`, then the sum over the whole axis of
  left factor times `W j` is the sum over the `D` places of `f d · W (c · D + d)`: every other group contributes
  `f d · 0 · W = 0`. This needs `x · 1 = x`, `x · 0 = 0` and `0 · x = 0`, which hold on all extended reals (the infinities
  included), and that a finite sum may be taken in any order; it does not need distributivity.
-/
import Idealize.ShloMosaic.PureOps.Ideal
import Mathlib.Algebra.BigOperators.Fin

namespace Idealize.ShloMosaic.OneHotSum

open Finset

/-- The selector collapses the merged axis to the selected group's `D` places. -/
theorem sum_onehot_block {N : ℕ} (C D : ℕ) (hN : N = C * D) (hD : 0 < D) (c : Fin C) (f : Fin D → EReal)
    (g W : Fin N → EReal)
    (hg : ∀ j : Fin N, g j = f ⟨j.val % D, Nat.mod_lt _ hD⟩ * (if j.val / D = c.val then (1 : EReal) else 0)) :
    ∑ j : Fin N, g j * W j
      = ∑ d : Fin D, f d * W ⟨c.val * D + d.val, by
          rw [hN]; have hc := c.isLt; have hd := d.isLt
          calc c.val * D + d.val < c.val * D + D := by omega
            _ = (c.val + 1) * D := by ring
            _ ≤ C * D := Nat.mul_le_mul_right D hc⟩ := by
  subst hN
  rw [← Equiv.sum_comp finProdFinEquiv (fun j => g j * W j), Fintype.sum_prod_type]
  rw [Finset.sum_eq_single c]
  · refine Finset.sum_congr rfl fun d _ => ?_
    have hv : (finProdFinEquiv (c, d)).val = d.val + D * c.val := rfl
    have hmod : (finProdFinEquiv (c, d)).val % D = d.val := by
      rw [hv, Nat.add_mul_mod_self_left]; exact Nat.mod_eq_of_lt d.isLt
    have hdiv : (finProdFinEquiv (c, d)).val / D = c.val := by
      rw [hv, Nat.add_mul_div_left _ _ hD, Nat.div_eq_of_lt d.isLt, Nat.zero_add]
    rw [hg, if_pos hdiv, mul_one]
    congr 1
    · exact congrArg f (Fin.ext hmod)
    · exact congrArg W (Fin.ext (by rw [hv]; ring))
  · intro a _ hac
    refine Finset.sum_eq_zero fun d _ => ?_
    have hv : (finProdFinEquiv (a, d)).val = d.val + D * a.val := rfl
    have hdiv : (finProdFinEquiv (a, d)).val / D = a.val := by
      rw [hv, Nat.add_mul_div_left _ _ hD, Nat.div_eq_of_lt d.isLt, Nat.zero_add]
    have hne : ¬ (finProdFinEquiv (a, d)).val / D = c.val := by
      rw [hdiv]; exact fun h => hac (Fin.ext h)
    rw [hg, if_neg hne, mul_zero, zero_mul]
  · intro h; exact absurd (Finset.mem_univ c) h

end Idealize.ShloMosaic.OneHotSum
-- ==== Proof.Spec.lean ====
/-
  What both programs compute, as one function of the argument arrays, index by index on the extended reals.

  Row `b` carries a category `c(b)`, its 32-bit label read as a signed integer and clamped into the 32 categories.
  With `obsEmb b e = (∑ k, obs b k · obsW k e) + obsB e` and
  `stateEmb b e = max ((∑ d, state b d · stateW c(b) d e) + stateB c(b) e) 0`, the result at `(b, o)` is
  `((∑ e, stateEmb b e · l2W c(b) e o) + (∑ e, obsEmb b e · l2W c(b) (256 + e) o)) + l2B c(b) o`:
  a per-category linear layer on the state, a shared one on the observation, and a per-category linear layer on the two
  joined side by side, the join written as the sum of its two halves.

  `blockOut` is the same value for the 128 rows of one block, over the arrays as the kernel is handed them: the state padded
  to 128 columns, and each weight table with its category axis and its row axis merged, category-major.
-/
import Idealize.ShloMosaic.PureOps.Ideal
import Idealize.ShloMosaic.Lib.ValueIdx

noncomputable section

namespace Cert.Spec

open Idealize.ShloMosaic Idealize.ShloMosaic.ValueIdx

/-- A 32-bit label read as a signed integer and clamped into the 32 categories. -/
def catRow (x : BitVec 32) : Fin 32 := ⟨min x.toInt.toNat 31, by omega⟩

/-- A label already among the categories is its own category. -/
theorem catRow_val_of_lt (x : BitVec 32) (h : x.toNat < 32) : (catRow x).val = x.toNat := by
  have e := BitVec.toInt_eq_toNat_cond x
  show min x.toInt.toNat 31 = x.toNat
  omega

section whole

variable (st : (⟨2, ![2048, 64]⟩ : Shape).Idx → EReal) (ob : (⟨3, ![2048, 1, 512]⟩ : Shape).Idx → EReal)
  (cat : (⟨1, ![2048]⟩ : Shape).Idx → BitVec 32) (oW : (⟨2, ![512, 256]⟩ : Shape).Idx → EReal)
  (oB : (⟨1, ![256]⟩ : Shape).Idx → EReal) (sW : (⟨3, ![32, 64, 256]⟩ : Shape).Idx → EReal)
  (sB : (⟨2, ![32, 256]⟩ : Shape).Idx → EReal) (lW : (⟨3, ![32, 512, 256]⟩ : Shape).Idx → EReal)
  (lB : (⟨2, ![32, 256]⟩ : Shape).Idx → EReal)

/-- The shared linear layer on row `b`'s observation, at output feature `e`. -/
def obsEmb (b : Fin 2048) (e : Fin 256) : EReal :=
  (∑ k : Fin 512, ob (ix3 b (0 : Fin 1) k) * oW (ix2 k e)) + oB (ix1 e)

/-- Row `b`'s category's linear layer on its state, rectified, at output feature `e`. -/
def stateEmb (b : Fin 2048) (e : Fin 256) : EReal :=
  max ((∑ d : Fin 64, st (ix2 b d) * sW (ix3 (catRow (cat (ix1 b))) d e)) + sB (ix2 (catRow (cat (ix1 b))) e)) 0

/-- The result at row `b`, output feature `o`. -/
def outRow (b : Fin 2048) (o : Fin 256) : EReal :=
  ((∑ e : Fin 256, stateEmb st cat sW sB b e * lW (ix3 (catRow (cat (ix1 b))) (⟨e.val, by omega⟩ : Fin 512) o))
    + (∑ e : Fin 256, obsEmb ob oW oB b e * lW (ix3 (catRow (cat (ix1 b))) (⟨256 + e.val, by omega⟩ : Fin 512) o)))
  + lB (ix2 (catRow (cat (ix1 b))) o)

/-- The result as the region leaves it, rows by output features. -/
def G2 : (⟨2, ![2048, 256]⟩ : Shape).Idx → EReal := fun i => outRow st ob cat oW oB sW sB lW lB (i 0) (i 1)

/-- The result as both programs return it, with the unit axis in the middle. -/
def G3 : (⟨3, ![2048, 1, 256]⟩ : Shape).Idx → EReal := fun i => outRow st ob cat oW oB sW sB lW lB (i 0) (i 2)

theorem G2_apply (b : Fin 2048) (o : Fin 256) :
    G2 st ob cat oW oB sW sB lW lB (ix2 b o) = outRow st ob cat oW oB sW sB lW lB b o := rfl

theorem G3_apply (b : Fin 2048) (u : Fin 1) (o : Fin 256) :
    G3 st ob cat oW oB sW sB lW lB (ix3 b u o) = outRow st ob cat oW oB sW sB lW lB b o := rfl

end whole

section block

variable (x0 : (⟨2, ![128, 1]⟩ : Shape).Idx → BitVec 32) (x1 : (⟨2, ![128, 128]⟩ : Shape).Idx → EReal)
  (x2 : (⟨2, ![128, 512]⟩ : Shape).Idx → EReal) (x3 x4 : (⟨2, ![128, 256]⟩ : Shape).Idx → EReal)
  (x5 : (⟨2, ![512, 256]⟩ : Shape).Idx → EReal) (x6 : (⟨2, ![1, 256]⟩ : Shape).Idx → EReal)
  (x7 : (⟨2, ![4096, 256]⟩ : Shape).Idx → EReal) (x8 x9 : (⟨2, ![8192, 256]⟩ : Shape).Idx → EReal)

/-- Row `p` of a block, at feature `e`: the observation's layer. -/
def blockObs (p : Fin 128) (e : Fin 256) : EReal :=
  (∑ k : Fin 512, x2 (ix2 p k) * x5 (ix2 k e)) + x6 (ix2 (0 : Fin 1) e)

/-- Row `p` of a block, at feature `e`: the state's layer, reading the 128 rows of the merged table that belong to the
    row's category. -/
def blockState (p : Fin 128) (e : Fin 256) : EReal :=
  max ((∑ d : Fin 128, x1 (ix2 p d) * x7 (ix2 (⟨(catRow (x0 (ix2 p (0 : Fin 1)))).val * 128 + d.val, by omega⟩ : Fin 4096) e))
    + x3 (ix2 p e)) 0

/-- What one block's row `p` ends at, output feature `o`. -/
def blockOut (p : Fin 128) (o : Fin 256) : EReal :=
  ((∑ e : Fin 256, blockState x0 x1 x3 x7 p e
        * x8 (ix2 (⟨(catRow (x0 (ix2 p (0 : Fin 1)))).val * 256 + e.val, by omega⟩ : Fin 8192) o))
    + (∑ e : Fin 256, blockObs x2 x5 x6 p e
        * x9 (ix2 (⟨(catRow (x0 (ix2 p (0 : Fin 1)))).val * 256 + e.val, by omega⟩ : Fin 8192) o)))
  + x4 (ix2 p o)

end block

end Cert.Spec

end
-- ==== Proof.PayloadLayers.lean ====
/-
  The two layers of the kernel body that select a category by a one-hot mask, each read at one entry on the extended reals.

  The state's layer: the state block, tiled over the 32 groups of 128 columns and multiplied by the selector of row p's
  category, against the merged per-category table. The selector keeps one group, so the product's entry (p, e) is the sum
  over that group's 128 rows of the table; the bias block is added, the result rectified, and the whole tiled again over
  32 groups of 256 columns.

  The last layer: two such tiled blocks (the rectified state embedding and the observation embedding), each multiplied by
  the selector over 32 groups of 256 and taken against its half of the last layer's merged table; their sum plus the
  bias block.
-/
import proofs.«411071_j61821759259471_3_alg».proof.Proof.PayloadPieces
import proofs.«411071_j61821759259471_3_alg».proof.Proof.LibOneHotSum
import proofs.«411071_j61821759259471_3_alg».proof.Proof.Spec

noncomputable section

namespace Cert.KernelIdeal.Payload

open Cert.KernelIdeal Cert.KernelIdeal.Gen Idealize.ShloMosaic Idealize.ShloMosaic.ValueIdx

/-- The state's layer as the body computes it, at column `j` of the tiled result: the block form at column `j % 256`. -/
theorem stateLayer_apply (v1 : IVec S128x1 32) (v12 : FVec Ideal S128x128 .f32) (v47 : FVec Ideal S4096x256 .bf16)
    (v50 : FVec Ideal S128x256 .f32) (p : Fin 128) (j : Fin 8192) (hc : (v1 (ix2 p (0 : Fin 1))).toNat < 32) :
    k0_pay6 (F := Ideal) v1 (k0_pay4 (F := Ideal) v12) k0_pay5 v47 v50 (ix2 p j)
      = Spec.blockState v1 v12 v50 v47 p (⟨j.val % 256, Nat.mod_lt _ (by omega)⟩ : Fin 256) := by
  unfold k0_pay6
  show concatenate S128x8192 1 (List.replicate 32 ⟨S128x256, _⟩) _ (ix2 p j) = _
  rw [concatenate_replicate_apply (t := S128x8192) (s₁ := S128x256) 1 32 _ _ rfl (ix2 p j)
    (ix2 p (⟨j.val % 256, Nat.mod_lt _ (by omega)⟩ : Fin 256)) rfl
    (fun b hb => by
      match b, hb with
      | ⟨0, _⟩, _ => rfl
      | ⟨1, _⟩, hb => exact absurd rfl hb)]
  simp only [matmul]
  rw [truncf_apply, maximumf_apply, addf_apply, MatmulSums.matmulState_apply, broadcast_apply, shapeCast_self, shapeCast_self]
  unfold Spec.blockState
  congr 1
  · congr 1
    refine OneHotSum.sum_onehot_block 32 128 rfl (by omega) (Spec.catRow (v1 (ix2 p (0 : Fin 1)))) (fun d => v12 (ix2 p d)) _
      (fun k => v47 (ix2 k (⟨j.val % 256, Nat.mod_lt _ (by omega)⟩ : Fin 256))) (fun k => ?_)
    rw [mulf_apply, tile128_apply, truncf_apply, sitofp_apply, extui_apply]
    dsimp only [cmpi]
    rw [group128_apply, broadcastTo_a1_ab_apply,
      FloorDivMask.sitofp_cmpi_eq_ofNat _ (by have := k.isLt; omega), Spec.catRow_val_of_lt _ hc]
  · exact Ideal.ofBits_zero_f32

/-- The last layer at (p, o), for tiled blocks `v57`, `v58` and a selector `v87` known entry by entry. -/
theorem lastLayer_apply (v57 v58 : FVec Ideal S128x8192 .bf16) (v87 : FVec Ideal S128x8192 .f32)
    (v91 v94 : FVec Ideal S8192x256 .bf16) (v98 : FVec Ideal S128x256 .f32) (p : Fin 128) (o : Fin 256) (c : Fin 32)
    (fs fo : Fin 256 → EReal)
    (h57 : ∀ k : Fin 8192, v57 (ix2 p k) = fs (⟨k.val % 256, Nat.mod_lt _ (by omega)⟩ : Fin 256))
    (h58 : ∀ k : Fin 8192, v58 (ix2 p k) = fo (⟨k.val % 256, Nat.mod_lt _ (by omega)⟩ : Fin 256))
    (h87 : ∀ k : Fin 8192, v87 (ix2 p k) = if k.val / 256 = c.val then (1 : EReal) else 0) :
    k0_pay1 (F := Ideal) v57 v58 v87 v91 v94 v98 (ix2 p o)
      = ((∑ e : Fin 256, fs e * v91 (ix2 (⟨c.val * 256 + e.val, by omega⟩ : Fin 8192) o))
          + (∑ e : Fin 256, fo e * v94 (ix2 (⟨c.val * 256 + e.val, by omega⟩ : Fin 8192) o)))
        + v98 (ix2 p o) := by
  unfold k0_pay1
  simp only [matmul]
  rw [addf_apply, addf_apply, MatmulSums.matmulLast_apply, MatmulSums.matmulLast_apply, shapeCast_self, shapeCast_self,
    shapeCast_self]
  refine congrArg₂ (· + ·) (congrArg₂ (· + ·) ?_ ?_) rfl
  · refine OneHotSum.sum_onehot_block 32 256 rfl (by omega) c fs _ (fun k => v91 (ix2 k o)) (fun k => ?_)
    rw [mulf_apply, truncf_apply, h57, h87]
  · refine OneHotSum.sum_onehot_block 32 256 rfl (by omega) c fo _ (fun k => v94 (ix2 k o)) (fun k => ?_)
    rw [mulf_apply, truncf_apply, h58, h87]

end Cert.KernelIdeal.Payload

end
-- ==== Proof.PayloadBlock.lean ====
/-
  The kernel body's one store, read at an entry: for a block whose row p carries a category word below 32, the stored value
  at (p, o) is `Spec.blockOut` of the ten input blocks — the state's layer selected by the row's category, rectified; the
  observation's shared layer; and the last layer's two halves selected by the same category, summed, plus the bias block.
-/
import proofs.«411071_j61821759259471_3_alg».proof.Proof.PayloadLayers

noncomputable section

namespace Cert.KernelIdeal.Payload

open Cert.KernelIdeal Cert.KernelIdeal.Gen Idealize.ShloMosaic Idealize.ShloMosaic.ValueIdx

/-- The category column passes through its identity cast unchanged. -/
theorem catColumn_eq (x0 : Vec Ideal S128x1 .i32) : k0_pay2 (F := Ideal) x0 = x0 := by
  unfold k0_pay2; exact shapeCast_self _ _

/-- THE STORED VALUE AT (p, o). -/
theorem payload_eq_blockOut (x0 : Vec Ideal S128x1 .i32) (x1 : FVec Ideal S128x128 .f32) (x2 : FVec Ideal S128x512 .f32)
    (x3 x4 : FVec Ideal S128x256 .f32) (x5 : FVec Ideal S512x256 .bf16) (x6 : FVec Ideal S1x256 .f32)
    (x7 : FVec Ideal S4096x256 .bf16) (x8 x9 : FVec Ideal S8192x256 .bf16) (p : Fin 128) (o : Fin 256)
    (hc : (x0 (ix2 p (0 : Fin 1))).toNat < 32) :
    k0_pay1 (F := Ideal) (k0_pay6 (F := Ideal) (k0_pay2 (F := Ideal) x0) (k0_pay4 (F := Ideal) x1) k0_pay5 x7 x3)
        (k0_pay7 (F := Ideal) (k0_pay3 (F := Ideal) x2 x5 x6)) (k0_pay8 (F := Ideal) (k0_pay2 (F := Ideal) x0)) x8 x9 x4 (ix2 p o)
      = Spec.blockOut x0 x1 x2 x3 x4 x5 x6 x7 x8 x9 p o := by
  rw [catColumn_eq]
  rw [lastLayer_apply _ _ _ x8 x9 x4 p o (Spec.catRow (x0 (ix2 p (0 : Fin 1))))
    (fun e => Spec.blockState x0 x1 x3 x7 p e) (fun e => Spec.blockObs x2 x5 x6 p e)
    (fun k => stateLayer_apply x0 x1 x7 x3 p k hc)
    (fun k => by rw [tile256_apply, obsLayer_apply]; rfl)
    (fun k => by rw [selector256_apply, Spec.catRow_val_of_lt _ hc])]
  rfl

end Cert.KernelIdeal.Payload

end
-- ==== Proof.HostTerms.lean ====
/-
  The ten arrays the region is launched on, each as the host operations in front of the region applied to the argument
  arrays: the clamped category labels as a column; the state padded with zero columns to 128; the observation with its
  unit axis dropped; the two bias tables gathered row by row at the clamped labels; the shared weight table and its bias
  as a row; the per-category state table padded with zero rows to 128 and its first two axes merged; and the two halves
  of the last layer's per-category table, each with its first two axes merged. (A change of float format is written where
  the program has one; on the extended reals it is the identity.)
-/
import proofs.«411071_j61821759259471_3_alg».proof.Proof.Gen.KernelIdeal.Frame
import Idealize.ShloMosaic.Lib.StableHlo.Run
import Idealize.ShloMosaic.PureOps.Ideal

noncomputable section

namespace Cert.KernelIdeal.HostArrays

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ)

/-! ## The arguments on core `c` -/

abbrev aState (c : Dev nD) : FVec Ideal S2048x64 .f32 := m ((c : Thread nD τ).loc main_arg0)
abbrev aObs (c : Dev nD) : FVec Ideal S2048x1x512 .f32 := m ((c : Thread nD τ).loc main_arg1)
abbrev aCat (c : Dev nD) : IVec S2048 32 := m ((c : Thread nD τ).loc main_arg2)
abbrev aObsW (c : Dev nD) : FVec Ideal S512x256 .f32 := m ((c : Thread nD τ).loc main_arg3)
abbrev aObsB (c : Dev nD) : FVec Ideal S256 .f32 := m ((c : Thread nD τ).loc main_arg4)
abbrev aStateW (c : Dev nD) : FVec Ideal S32x64x256 .f32 := m ((c : Thread nD τ).loc main_arg5)
abbrev aStateB (c : Dev nD) : FVec Ideal S32x256 .f32 := m ((c : Thread nD τ).loc main_arg6)
abbrev aL2W (c : Dev nD) : FVec Ideal S32x512x256 .f32 := m ((c : Thread nD τ).loc main_arg7)
abbrev aL2B (c : Dev nD) : FVec Ideal S32x256 .f32 := m ((c : Thread nD τ).loc main_arg8)

/-! ## The host operations' terms -/

/-- The labels clamped into [0, 31]. -/
def clipped (c : Dev nD) : IVec S2048 32 :=
  minsi (broadcastInDim S2048 ![] bcast_S_S2048 (constantI S_ 32 31#32))
    (maxsi (broadcastInDim S2048 ![] bcast_S_S2048 (constantI S_ 32 0#32)) (aCat m c))

/-- The clamped labels with a negative one wrapped around the 32 rows (an indexing step: no clamped label is negative). -/
def wrapped (c : Dev nD) : IVec S2048 32 :=
  select (cmpi .slt (clipped m c) (broadcastInDim S2048 ![] bcast_S_S2048 (constantI S_ 32 0#32)))
    (addi (clipped m c) (broadcastInDim S2048 ![] bcast_S_S2048 (constantI S_ 32 32#32))) (clipped m c)

/-- The start rows of the two bias gathers, as a column. -/
def startCol (c : Dev nD) : IVec S2048x1 32 := broadcastInDim S2048x1 ![0] bcast_S2048_S2048x1_0 (wrapped m c)

def tCat (c : Dev nD) : IVec S2048x1 32 := shapeCast S2048x1 (clipped m c) shapeCasts_S2048_S2048x1
def tState (c : Dev nD) : FVec Ideal S2048x128 .f32 :=
  pad S2048x128 ![0, 0] ![0, 64] ![0, 0] (aState m c) (sitofp (F := Ideal) .f32 (constantI S_ 32 0#32)) pads_S2048x64_S2048x128_000_0640 h_S_
def tObs (c : Dev nD) : FVec Ideal S2048x512 .f32 := shapeCast S2048x512 (aObs m c) shapeCasts_S2048x1x512_S2048x512
def tStateBias (c : Dev nD) : FVec Ideal S2048x256 .f32 :=
  Host.gather gather_S32x256_S2048x1_S2048x256_1_0_n_n_0_1_1256 (aStateB m c) (startCol m c)
def tL2Bias (c : Dev nD) : FVec Ideal S2048x256 .f32 :=
  Host.gather gather_S32x256_S2048x1_S2048x256_1_0_n_n_0_1_1256 (aL2B m c) (startCol m c)
def tObsW (c : Dev nD) : FVec Ideal S512x256 .bf16 := truncf (F := Ideal) .bf16 (aObsW m c) bitsLt_bf16_f32
def tObsB (c : Dev nD) : FVec Ideal S1x256 .f32 := shapeCast S1x256 (aObsB m c) shapeCasts_S256_S1x256
def tStateWPad (c : Dev nD) : FVec Ideal S32x128x256 .f32 :=
  pad S32x128x256 ![0, 0, 0] ![0, 64, 0] ![0, 0, 0] (aStateW m c) (sitofp (F := Ideal) .f32 (constantI S_ 32 0#32))
    pads_S32x64x256_S32x128x256_000_0640_000 h_S_
def tStateW (c : Dev nD) : FVec Ideal S4096x256 .bf16 :=
  truncf (F := Ideal) .bf16 (shapeCast S4096x256 (tStateWPad m c) shapeCasts_S32x128x256_S4096x256) bitsLt_bf16_f32
def tL2WState (c : Dev nD) : FVec Ideal S8192x256 .bf16 :=
  truncf (F := Ideal) .bf16 (shapeCast S8192x256
    (extractStridedSlice S32x256x256 ![0, 0, 0] (aL2W m c) slices_S32x512x256_S32x256x256_0_0_0) shapeCasts_S32x256x256_S8192x256)
    bitsLt_bf16_f32
def tL2WObs (c : Dev nD) : FVec Ideal S8192x256 .bf16 :=
  truncf (F := Ideal) .bf16 (shapeCast S8192x256
    (extractStridedSlice S32x256x256 ![0, 256, 0] (aL2W m c) slices_S32x512x256_S32x256x256_0_256_0) shapeCasts_S32x256x256_S8192x256)
    bitsLt_bf16_f32

/-! ## The region finds each window's array at its term -/

local macro "host_term" : tactic =>
  `(tactic| (dsimp only [V, V0]
             simp only [hostOps0, hostOps0_1, hostOps0_2, hostOps0_3, hostOps0_4, hostOps0_5, hostOps0_6, List.flatten_cons,
               List.flatten_nil, List.append_nil, List.cons_append, List.nil_append]
             after_results
             rfl))

/-- The same for an array whose term shares the clamped labels among several consumers: one pass, each shared part once. -/
local macro "host_term_shared" : tactic =>
  `(tactic| (dsimp only [V, V0]
             simp only [hostOps0, hostOps0_1, hostOps0_2, hostOps0_3, hostOps0_4, hostOps0_5, hostOps0_6, List.flatten_cons,
               List.flatten_nil, List.append_nil, List.cons_append, List.nil_append]
             after_results_simp
             rfl))

theorem V_cat (c : Dev nD) : (V m c main_v15 : IVec S2048x1 32) = tCat m c := by host_term
theorem V_state (c : Dev nD) : (V m c main_v16 : FVec Ideal S2048x128 .f32) = tState m c := by host_term
theorem V_obs (c : Dev nD) : (V m c main_v17 : FVec Ideal S2048x512 .f32) = tObs m c := by host_term
theorem V_stateBias (c : Dev nD) : (V m c main_v7 : FVec Ideal S2048x256 .f32) = tStateBias m c := by host_term_shared
theorem V_l2Bias (c : Dev nD) : (V m c main_v14 : FVec Ideal S2048x256 .f32) = tL2Bias m c := by host_term_shared
theorem V_obsW (c : Dev nD) : (V m c main_v18 : FVec Ideal S512x256 .bf16) = tObsW m c := by host_term
theorem V_obsB (c : Dev nD) : (V m c main_v19 : FVec Ideal S1x256 .f32) = tObsB m c := by host_term
theorem V_stateW (c : Dev nD) : (V m c main_v22 : FVec Ideal S4096x256 .bf16) = tStateW m c := by host_term
theorem V_l2WState (c : Dev nD) : (V m c main_v26 : FVec Ideal S8192x256 .bf16) = tL2WState m c := by host_term
theorem V_l2WObs (c : Dev nD) : (V m c main_v28 : FVec Ideal S8192x256 .bf16) = tL2WObs m c := by host_term

end Cert.KernelIdeal.HostArrays

end
-- ==== Proof.LibLabelWords.lean ====
/-
  A 32-bit label already inside [0, hi], hi small: clamping it into [0, hi] leaves it unchanged, wrapping a negative
  index around (add the extent when the word is negative) leaves it unchanged, and reading it as a signed integer and
  clamping it into a table of N rows, N − 1 ≥ its value, gives its value.
-/
import Idealize.ShloMosaic.PureOps.Ideal

namespace Idealize.ShloMosaic.LabelWords

open Idealize.ShloMosaic

theorem toInt_of_small (x : BitVec 32) (h : x.toNat < 2 ^ 31) : x.toInt = (x.toNat : ℤ) := by
  have e := BitVec.toInt_eq_toNat_cond x
  omega

/-- The larger of zero and a non-negative word is the word. -/
theorem maxsi_zero_of_small (x : BitVec 32) (h : x.toNat < 2 ^ 31) : IntOp.maxsi 0#32 x = x := by
  have hx := toInt_of_small x h
  have h0 : (0#32 : BitVec 32).toInt = 0 := by decide
  unfold IntOp.maxsi
  split
  · rename_i hc
    simp only [BitVec.slt, hx, h0, decide_eq_true_eq] at hc
    omega
  · rfl

/-- The smaller of a cap and a word not above it is the word. -/
theorem minsi_cap_of_le (hi x : BitVec 32) (hhi : hi.toNat < 2 ^ 31) (hx : x.toNat ≤ hi.toNat) : IntOp.minsi hi x = x := by
  have e1 := toInt_of_small x (by omega)
  have e2 := toInt_of_small hi hhi
  unfold IntOp.minsi
  split
  · rename_i hc
    simp only [BitVec.slt, e1, e2, decide_eq_true_eq] at hc
    apply BitVec.eq_of_toNat_eq
    omega
  · rfl

/-- Clamping a label already in [0, hi] into [0, hi]: unchanged. -/
theorem clip_of_le (hi x : BitVec 32) (hhi : hi.toNat < 2 ^ 31) (hx : x.toNat ≤ hi.toNat) :
    IntOp.minsi hi (IntOp.maxsi 0#32 x) = x := by
  rw [maxsi_zero_of_small x (by omega), minsi_cap_of_le hi x hhi hx]

/-- Wrapping a non-negative label: unchanged. -/
theorem wrap_of_small (x n : BitVec 32) (h : x.toNat < 2 ^ 31) :
    Scalar.select (IntOp.cmpi .slt x 0#32) (IntOp.addi x n) x = x := by
  have hx := toInt_of_small x h
  have h0 : (0#32 : BitVec 32).toInt = 0 := by decide
  have hlt : x.slt (0#32 : BitVec 32) = false := by
    simp only [BitVec.slt, hx, h0, decide_eq_false_iff_not]
    omega
  simp [Scalar.select, IntOp.cmpi, hlt]

/-- A word that is at least zero and below a small bound, both as signed compares, is below it as a number. -/
theorem toNat_lt_of_sge_slt (x : BitVec 32) (k : ℕ) (hk : k < 2 ^ 31) (h0 : IntOp.cmpi .sge x 0#32 = 1#1)
    (h1 : IntOp.cmpi .slt x (BitVec.ofNat 32 k) = 1#1) : x.toNat < k := by
  have e := BitVec.toInt_eq_toNat_cond x
  have z : (0#32 : BitVec 32).toInt = 0 := by decide
  have ek : (BitVec.ofNat 32 k).toInt = (k : ℤ) := by
    have e' := BitVec.toInt_eq_toNat_cond (BitVec.ofNat 32 k)
    have : (BitVec.ofNat 32 k).toNat = k := by rw [BitVec.toNat_ofNat]; exact Nat.mod_eq_of_lt (by omega)
    omega
  have g0 : (0#32 : BitVec 32).sle x = true := by
    have := h0
    simp only [IntOp.cmpi] at this
    cases hb : (0#32 : BitVec 32).sle x
    · rw [hb] at this; exact absurd this (by decide)
    · rfl
  have g1 : x.slt (BitVec.ofNat 32 k) = true := by
    have := h1
    simp only [IntOp.cmpi] at this
    cases hb : x.slt (BitVec.ofNat 32 k)
    · rw [hb] at this; exact absurd this (by decide)
    · rfl
  simp only [BitVec.sle, z, decide_eq_true_eq] at g0
  simp only [BitVec.slt, ek, decide_eq_true_eq] at g1
  omega

end Idealize.ShloMosaic.LabelWords
-- ==== Proof.LibRowGather.lean ====
/-
  A row gather read at an index. `table[idx]` over a rank-2 table [N, D] at a vector of n row numbers prints as a
  `stablehlo.gather` whose start indices are the [n, 1] column of row numbers, whose operand axis 0 is collapsed and
  start-indexed, whose operand axis 1 is the one offset axis, and whose slices are whole rows [1, D]. Result element (p, q)
  is the table at (row, q), the row being position p's start index read as a signed integer and clamped into [0, N − 1].
-/
import Idealize.ShloMosaic.PureOps.ShapeOps
import Idealize.ShloMosaic.Lib.ValueIdx

namespace Idealize.ShloMosaic.RowGather

open Idealize.ShloMosaic Idealize.ShloMosaic.ValueIdx

/-- A rank-2 index read on an axis whose number is 0 is its first coordinate. -/
theorem ix2_val_zero {n0 n1 : Nat} (a : Fin n0) (b : Fin n1) (i : Fin 2) (hi : i.val = 0) : (ix2 a b i).val = a.val := by
  match i, hi with
  | ⟨0, _⟩, _ => rfl
/-- … and on an axis whose number is 1, its second. -/
theorem ix2_val_one {n0 n1 : Nat} (a : Fin n0) (b : Fin n1) (i : Fin 2) (hi : i.val = 1) : (ix2 a b i).val = b.val := by
  match i, hi with
  | ⟨1, _⟩, _ => rfl

/-- A start index read as a signed integer and clamped into a table of `N` rows: the row a gather reads. -/
def clampRow (N : Nat) (hN : 0 < N) {w : Nat} (i : BitVec w) : Fin N := ⟨min i.toInt.toNat (N - 1), by omega⟩

/-- THE ROW GATHER AT (p, q): the table at (the clamped start row of position p, q). The five hypotheses are the printed
    dimension numbers, each by `rfl` at a program's record. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 (clampRow N hN (idx (ix2 p (0 : Fin 1)))) q) := by
  unfold Host.gather clampRow
  congr 1
  funext a
  apply Fin.ext
  have hb : ∀ a : Fin 2, a ∉ d.operandBatchingDims := fun a => by rw [hob]; exact List.not_mem_nil
  -- the result's batch axes are all axis 0, its offset axes all axis 1
  have hbatch : ∀ a ∈ d.batchDims, a.val = 0 := by
    intro a ha
    have hna : a ∉ d.offsetDims := by
      have := (List.mem_filter.mp ha).2
      simpa using this
    rw [hoff] at hna
    have h2 : a.val < 2 := a.isLt
    by_contra hne
    exact hna (List.mem_singleton.mpr (Fin.ext (by show a.val = 1; omega)))
  have hoffs : ∀ a ∈ d.offsetDims, a.val = 1 := by
    intro a ha; rw [hoff] at ha; rw [List.mem_singleton.mp ha]; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min _ (N - 1)
    rw [d.batchCoord_eq_zero _ _ (hb 0), d.offCoord_eq_zero _ _ hk]
    simp only [Nat.add_zero]
    unfold GatherDims.start
    rw [dif_pos hm]
    have hsi : d.siIdx (ix2 p q) ⟨d.startIndexMap.idxOf (0 : Fin 2), List.idxOf_lt_length_iff.2 hm⟩ = ix2 p (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact ix2_val_zero p q _ (hbatch _ (List.getElem_mem _))
      | ⟨1, _⟩ =>
        unfold GatherDims.siIdx
        rw [dif_pos (by rw [hivd])]
        show List.idxOf (0 : Fin 2) d.startIndexMap = 0
        rw [hsim]; simp
    rw [hsi]
    show min (idx (ix2 p 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    simp only [Nat.add_zero]
    unfold GatherDims.start
    rw [dif_neg hm, Nat.zero_add]
    unfold GatherDims.offCoord
    rw [dif_pos hk]
    exact ix2_val_one p q _ (hoffs _ (List.getElem_mem _))

end Idealize.ShloMosaic.RowGather
-- ==== Proof.HostIndex.lean ====
/-
  The ten launched arrays read at one entry, for a row whose category label is a number below 32.

  For such a label the clamp into [0, 31] and the wrap of a negative index are identities, so the label column holds the
  label, and both bias gathers read the label's own row. The padded state holds the state in its first 64 columns and
  zero after; the padded, merged state table holds category c's row d at merged row c · 128 + d for d < 64 and zero for
  64 ≤ d < 128; each half of the last layer's table holds category c's row e (respectively 256 + e) at merged row
  c · 256 + e. The remaining arrays are the arguments re-laid.
-/
import proofs.«411071_j61821759259471_3_alg».proof.Proof.HostTerms
import proofs.«411071_j61821759259471_3_alg».proof.Proof.Spec
import proofs.«411071_j61821759259471_3_alg».proof.Proof.LibLabelWords
import proofs.«411071_j61821759259471_3_alg».proof.Proof.LibRowGather
import Idealize.ShloMosaic.Lib.Pipeline.Value
import Idealize.ShloMosaic.Lib.ValueLayout
import Idealize.ShloMosaic.Lib.KernelVsHost

noncomputable section

namespace Cert.KernelIdeal.HostArrays

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The clamped start row of a table of 32 rows is the label's category. -/
theorem clampRow_eq_catRow (x : BitVec 32) (h : 0 < 32) : RowGather.clampRow 32 h x = Spec.catRow x := Fin.ext rfl

/-! ## The labels -/

theorem splat0_apply (b : Fin 2048) : broadcastInDim S2048 ![] bcast_S_S2048 (constantI S_ 32 0#32) (ix1 b) = 0#32 :=
  broadcastInDim_apply _ bcast_S_S2048 _ (ix1 b) ix0 (fun a => a.elim0)
theorem splat31_apply (b : Fin 2048) : broadcastInDim S2048 ![] bcast_S_S2048 (constantI S_ 32 31#32) (ix1 b) = 31#32 :=
  broadcastInDim_apply _ bcast_S_S2048 _ (ix1 b) ix0 (fun a => a.elim0)
theorem splat32_apply (b : Fin 2048) : broadcastInDim S2048 ![] bcast_S_S2048 (constantI S_ 32 32#32) (ix1 b) = 32#32 :=
  broadcastInDim_apply _ bcast_S_S2048 _ (ix1 b) ix0 (fun a => a.elim0)

theorem toNat_31 : (31#32 : BitVec 32).toNat = 31 := by decide

/-- A label below 32 survives the clamp. -/
theorem clipped_apply (c : Dev nD) (b : Fin 2048) (h : (aCat m c (ix1 b)).toNat < 32) : clipped m c (ix1 b) = aCat m c (ix1 b) := by
  unfold clipped
  show IntOp.minsi (broadcastInDim S2048 ![] bcast_S_S2048 (constantI S_ 32 31#32) (ix1 b))
    (IntOp.maxsi (broadcastInDim S2048 ![] bcast_S_S2048 (constantI S_ 32 0#32) (ix1 b)) (aCat m c (ix1 b))) = _
  rw [splat0_apply, splat31_apply]
  exact LabelWords.clip_of_le 31#32 _ (by decide) (by rw [toNat_31]; omega)

/-- … and the wrap. -/
theorem wrapped_apply (c : Dev nD) (b : Fin 2048) (h : (aCat m c (ix1 b)).toNat < 32) : wrapped m c (ix1 b) = aCat m c (ix1 b) := by
  unfold wrapped
  show Scalar.select (IntOp.cmpi .slt (clipped m c (ix1 b)) (broadcastInDim S2048 ![] bcast_S_S2048 (constantI S_ 32 0#32) (ix1 b)))
    (IntOp.addi (clipped m c (ix1 b)) (broadcastInDim S2048 ![] bcast_S_S2048 (constantI S_ 32 32#32) (ix1 b))) (clipped m c (ix1 b)) = _
  rw [splat0_apply, splat32_apply, clipped_apply m c b h]
  exact LabelWords.wrap_of_small _ _ (by omega)

/-- The gathers' start column holds the label. -/
theorem startCol_apply (c : Dev nD) (b : Fin 2048) (h : (aCat m c (ix1 b)).toNat < 32) :
    startCol m c (ix2 b (0 : Fin 1)) = aCat m c (ix1 b) := by
  unfold startCol
  rw [broadcastInDim_apply _ bcast_S2048_S2048x1_0 (wrapped m c) (ix2 b (0 : Fin 1)) (ix1 b) (fun a => match a with
    | ⟨0, _⟩ => by show b.val = if (2048 : Nat) = 1 then 0 else b.val; rw [if_neg (by decide)])]
  exact wrapped_apply m c b h

/-- The label column the kernel is handed holds the label. -/
theorem tCat_apply (c : Dev nD) (b : Fin 2048) (h : (aCat m c (ix1 b)).toNat < 32) :
    tCat m c (ix2 b (0 : Fin 1)) = aCat m c (ix1 b) := by
  unfold tCat
  rw [shapeCast_apply (clipped m c) shapeCasts_S2048_S2048x1 (ix2 b (0 : Fin 1)) (ix1 b) (by
    rw [Shape.rowMajor_val_one, Shape.rowMajor_val_two]; show b.val = b.val * 1 + 0; omega)]
  exact clipped_apply m c b h

/-! ## The two gathered bias tables -/

theorem tStateBias_apply (c : Dev nD) (b : Fin 2048) (e : Fin 256) (h : (aCat m c (ix1 b)).toNat < 32) :
    tStateBias m c (ix2 b e) = aStateB m c (ix2 (Spec.catRow (aCat m c (ix1 b))) e) := by
  unfold tStateBias
  rw [RowGather.gather_rows_apply gather_S32x256_S2048x1_S2048x256_1_0_n_n_0_1_1256 rfl rfl rfl rfl rfl (aStateB m c) (startCol m c) b e
    (by omega), startCol_apply m c b h, clampRow_eq_catRow]

theorem tL2Bias_apply (c : Dev nD) (b : Fin 2048) (o : Fin 256) (h : (aCat m c (ix1 b)).toNat < 32) :
    tL2Bias m c (ix2 b o) = aL2B m c (ix2 (Spec.catRow (aCat m c (ix1 b))) o) := by
  unfold tL2Bias
  rw [RowGather.gather_rows_apply gather_S32x256_S2048x1_S2048x256_1_0_n_n_0_1_1256 rfl rfl rfl rfl rfl (aL2B m c) (startCol m c) b o
    (by omega), startCol_apply m c b h, clampRow_eq_catRow]

/-! ## The padded state -/

/-- The padding value is zero. -/
theorem padValue_eq : sitofp (F := Ideal) .f32 (constantI S_ 32 0#32) (Shape.Idx.first h_S_) = (0 : EReal) := by
  show (((0#32 : BitVec 32).toInt : ℝ) : EReal) = 0
  simp

theorem tState_lo (c : Dev nD) (b : Fin 2048) (d : Fin 128) (hd : d.val < 64) :
    tState m c (ix2 b d) = aState m c (ix2 b (⟨d.val, hd⟩ : Fin 64)) := by
  unfold tState
  exact pad_apply_of_inside _ _ _ _ _ pads_S2048x64_S2048x128_000_0640 h_S_ (ix2 b d) (ix2 b (⟨d.val, hd⟩ : Fin 64)) (fun a => by
    match a with
    | ⟨0, _⟩ => show b.val = 0 + b.val * (0 + 1); omega
    | ⟨1, _⟩ => show d.val = 0 + d.val * (0 + 1); omega)

theorem tState_hi (c : Dev nD) (b : Fin 2048) (d : Fin 128) (hd : 64 ≤ d.val) : tState m c (ix2 b d) = (0 : EReal) := by
  unfold tState
  rw [pad_apply_of_not_inside _ _ _ _ _ pads_S2048x64_S2048x128_000_0640 h_S_ (ix2 b d) (1 : Fin 2) (by
    show ¬(0 ≤ d.val ∧ (d.val - 0) % (0 + 1) = 0 ∧ (d.val - 0) / (0 + 1) < 64)
    omega)]
  exact padValue_eq

/-! ## The re-laid arguments -/

theorem tObs_apply (c : Dev nD) (b : Fin 2048) (k : Fin 512) : tObs m c (ix2 b k) = aObs m c (ix3 b (0 : Fin 1) k) := by
  unfold tObs
  exact shapeCast_apply (aObs m c) shapeCasts_S2048x1x512_S2048x512 (ix2 b k) (ix3 b (0 : Fin 1) k) (by
    rw [Shape.rowMajor_val_three, Shape.rowMajor_val_two]; show (b.val * 1 + 0) * 512 + k.val = b.val * 512 + k.val; omega)

theorem tObsW_apply (c : Dev nD) (k : Fin 512) (e : Fin 256) : tObsW m c (ix2 k e) = aObsW m c (ix2 k e) := rfl

theorem tObsB_apply (c : Dev nD) (e : Fin 256) : tObsB m c (ix2 (0 : Fin 1) e) = aObsB m c (ix1 e) := by
  unfold tObsB
  exact shapeCast_apply (aObsB m c) shapeCasts_S256_S1x256 (ix2 (0 : Fin 1) e) (ix1 e) (by
    rw [Shape.rowMajor_val_one, Shape.rowMajor_val_two]; show e.val = 0 * 256 + e.val; omega)

/-! ## The per-category state table, padded and merged -/

theorem tStateW_lo (c : Dev nD) (cc : Fin 32) (d : Fin 128) (e : Fin 256) (hd : d.val < 64) :
    tStateW m c (ix2 (⟨cc.val * 128 + d.val, by omega⟩ : Fin 4096) e) = aStateW m c (ix3 cc (⟨d.val, hd⟩ : Fin 64) e) := by
  unfold tStateW
  rw [truncf_apply, shapeCast_apply (tStateWPad m c) shapeCasts_S32x128x256_S4096x256 (ix2 (⟨cc.val * 128 + d.val, by omega⟩ : Fin 4096) e)
    (ix3 cc d e) (by
      rw [Shape.rowMajor_val_three, Shape.rowMajor_val_two]
      show (cc.val * 128 + d.val) * 256 + e.val = (cc.val * 128 + d.val) * 256 + e.val; rfl)]
  unfold tStateWPad
  exact pad_apply_of_inside _ _ _ _ _ pads_S32x64x256_S32x128x256_000_0640_000 h_S_ (ix3 cc d e) (ix3 cc (⟨d.val, hd⟩ : Fin 64) e) (fun a => by
    match a with
    | ⟨0, _⟩ => show cc.val = 0 + cc.val * (0 + 1); omega
    | ⟨1, _⟩ => show d.val = 0 + d.val * (0 + 1); omega
    | ⟨2, _⟩ => show e.val = 0 + e.val * (0 + 1); omega)

theorem tStateW_hi (c : Dev nD) (cc : Fin 32) (d : Fin 128) (e : Fin 256) (hd : 64 ≤ d.val) :
    tStateW m c (ix2 (⟨cc.val * 128 + d.val, by omega⟩ : Fin 4096) e) = (0 : EReal) := by
  unfold tStateW
  rw [truncf_apply, shapeCast_apply (tStateWPad m c) shapeCasts_S32x128x256_S4096x256 (ix2 (⟨cc.val * 128 + d.val, by omega⟩ : Fin 4096) e)
    (ix3 cc d e) (by
      rw [Shape.rowMajor_val_three, Shape.rowMajor_val_two]
      show (cc.val * 128 + d.val) * 256 + e.val = (cc.val * 128 + d.val) * 256 + e.val; rfl)]
  unfold tStateWPad
  rw [pad_apply_of_not_inside _ _ _ _ _ pads_S32x64x256_S32x128x256_000_0640_000 h_S_ (ix3 cc d e) (1 : Fin 3) (by
    show ¬(0 ≤ d.val ∧ (d.val - 0) % (0 + 1) = 0 ∧ (d.val - 0) / (0 + 1) < 64)
    omega)]
  exact padValue_eq

/-! ## The two halves of the last layer's table, merged -/

theorem tL2WState_apply (c : Dev nD) (cc : Fin 32) (e : Fin 256) (o : Fin 256) :
    tL2WState m c (ix2 (⟨cc.val * 256 + e.val, by omega⟩ : Fin 8192) o) = aL2W m c (ix3 cc (⟨e.val, by omega⟩ : Fin 512) o) := by
  unfold tL2WState
  rw [truncf_apply, shapeCast_apply _ shapeCasts_S32x256x256_S8192x256 (ix2 (⟨cc.val * 256 + e.val, by omega⟩ : Fin 8192) o) (ix3 cc e o) (by
      rw [Shape.rowMajor_val_three, Shape.rowMajor_val_two]
      show (cc.val * 256 + e.val) * 256 + o.val = (cc.val * 256 + e.val) * 256 + o.val; rfl)]
  exact slice3_axis1_apply 0 (aL2W m c) slices_S32x512x256_S32x256x256_0_0_0 cc e o (⟨e.val, by omega⟩ : Fin 512) (by show e.val = 0 + e.val; omega)

theorem tL2WObs_apply (c : Dev nD) (cc : Fin 32) (e : Fin 256) (o : Fin 256) :
    tL2WObs m c (ix2 (⟨cc.val * 256 + e.val, by omega⟩ : Fin 8192) o) = aL2W m c (ix3 cc (⟨256 + e.val, by omega⟩ : Fin 512) o) := by
  unfold tL2WObs
  rw [truncf_apply, shapeCast_apply _ shapeCasts_S32x256x256_S8192x256 (ix2 (⟨cc.val * 256 + e.val, by omega⟩ : Fin 8192) o) (ix3 cc e o) (by
      rw [Shape.rowMajor_val_three, Shape.rowMajor_val_two]
      show (cc.val * 256 + e.val) * 256 + o.val = (cc.val * 256 + e.val) * 256 + o.val; rfl)]
  exact slice3_axis1_apply 256 (aL2W m c) slices_S32x512x256_S32x256x256_0_256_0 cc e o (⟨256 + e.val, by omega⟩ : Fin 512) rfl

end Cert.KernelIdeal.HostArrays

end
-- ==== Proof.SpecBridge.lean ====
/-
  From one block's row to the whole array's row: `Spec.blockOut` over blocks and merged tables that hold the arguments the
  way the launch lays them out is `Spec.outRow` over the arguments.

  The only arithmetic is in the state's layer: the kernel sums over 128 columns, of which the last 64 are zero padding on
  both the state and the table, so those terms are 0 · 0 = 0 and the sum is the sum over the first 64. Everything else
  is a renaming of entries.
-/
import proofs.«411071_j61821759259471_3_alg».proof.Proof.Spec
import Mathlib.Algebra.BigOperators.Fin

noncomputable section

namespace Cert.Spec

open Idealize.ShloMosaic Idealize.ShloMosaic.ValueIdx

/-- A sum over 128 places whose last 64 terms vanish is the sum over the first 64. -/
theorem sum_zero_padded (f : Fin 128 → EReal) (g : Fin 64 → EReal)
    (hlo : ∀ (d : Fin 128) (hd : d.val < 64), f d = g ⟨d.val, hd⟩) (hhi : ∀ d : Fin 128, 64 ≤ d.val → f d = 0) :
    ∑ d : Fin 128, f d = ∑ d : Fin 64, g d := by
  have e := Fin.sum_univ_add (M := EReal) (a := 64) (b := 64) (fun i : Fin (64 + 64) => f i)
  rw [show (∑ d : Fin 128, f d) = ∑ i : Fin (64 + 64), (fun i : Fin (64 + 64) => f i) i from rfl, e]
  have h2 : ∑ i : Fin 64, (fun i : Fin (64 + 64) => f i) (Fin.natAdd 64 i) = 0 :=
    Finset.sum_eq_zero fun i _ => hhi _ (by show 64 ≤ 64 + i.val; omega)
  rw [h2, add_zero]
  exact Finset.sum_congr rfl fun i _ => hlo _ (by show i.val < 64; exact i.isLt)

/-- A sum over 512 places is the sum over the first 256 plus the sum over the last 256. -/
theorem sum_split_halves (f : Fin 512 → EReal) :
    ∑ k : Fin 512, f k = (∑ e : Fin 256, f (⟨e.val, by omega⟩ : Fin 512)) + ∑ e : Fin 256, f (⟨256 + e.val, by omega⟩ : Fin 512) := by
  have e := Fin.sum_univ_add (M := EReal) (a := 256) (b := 256) (fun i : Fin (256 + 256) => f i)
  rw [show (∑ k : Fin 512, f k) = ∑ i : Fin (256 + 256), (fun i : Fin (256 + 256) => f i) i from rfl, e]
  rfl

section

variable (st : (⟨2, ![2048, 64]⟩ : Shape).Idx → EReal) (ob : (⟨3, ![2048, 1, 512]⟩ : Shape).Idx → EReal)
  (cat : (⟨1, ![2048]⟩ : Shape).Idx → BitVec 32) (oW : (⟨2, ![512, 256]⟩ : Shape).Idx → EReal)
  (oB : (⟨1, ![256]⟩ : Shape).Idx → EReal) (sW : (⟨3, ![32, 64, 256]⟩ : Shape).Idx → EReal)
  (sB : (⟨2, ![32, 256]⟩ : Shape).Idx → EReal) (lW : (⟨3, ![32, 512, 256]⟩ : Shape).Idx → EReal)
  (lB : (⟨2, ![32, 256]⟩ : Shape).Idx → EReal)
  (x0 : (⟨2, ![128, 1]⟩ : Shape).Idx → BitVec 32) (x1 : (⟨2, ![128, 128]⟩ : Shape).Idx → EReal)
  (x2 : (⟨2, ![128, 512]⟩ : Shape).Idx → EReal) (x3 x4 : (⟨2, ![128, 256]⟩ : Shape).Idx → EReal)
  (x5 : (⟨2, ![512, 256]⟩ : Shape).Idx → EReal) (x6 : (⟨2, ![1, 256]⟩ : Shape).Idx → EReal)
  (x7 : (⟨2, ![4096, 256]⟩ : Shape).Idx → EReal) (x8 x9 : (⟨2, ![8192, 256]⟩ : Shape).Idx → EReal)

/-- Row p of a block is row b of the array. -/
theorem blockOut_eq_outRow (b : Fin 2048) (p : Fin 128) (o : Fin 256)
    (h0 : x0 (ix2 p (0 : Fin 1)) = cat (ix1 b))
    (h1lo : ∀ (d : Fin 128) (hd : d.val < 64), x1 (ix2 p d) = st (ix2 b (⟨d.val, hd⟩ : Fin 64)))
    (h1hi : ∀ d : Fin 128, 64 ≤ d.val → x1 (ix2 p d) = 0)
    (h2 : ∀ k : Fin 512, x2 (ix2 p k) = ob (ix3 b (0 : Fin 1) k))
    (h3 : ∀ e : Fin 256, x3 (ix2 p e) = sB (ix2 (catRow (cat (ix1 b))) e))
    (h4 : x4 (ix2 p o) = lB (ix2 (catRow (cat (ix1 b))) o))
    (h5 : ∀ (k : Fin 512) (e : Fin 256), x5 (ix2 k e) = oW (ix2 k e))
    (h6 : ∀ e : Fin 256, x6 (ix2 (0 : Fin 1) e) = oB (ix1 e))
    (h7lo : ∀ (cc : Fin 32) (d : Fin 128) (e : Fin 256) (hd : d.val < 64),
      x7 (ix2 (⟨cc.val * 128 + d.val, by omega⟩ : Fin 4096) e) = sW (ix3 cc (⟨d.val, hd⟩ : Fin 64) e))
    (h7hi : ∀ (cc : Fin 32) (d : Fin 128) (e : Fin 256), 64 ≤ d.val →
      x7 (ix2 (⟨cc.val * 128 + d.val, by omega⟩ : Fin 4096) e) = 0)
    (h8 : ∀ (cc : Fin 32) (e : Fin 256), x8 (ix2 (⟨cc.val * 256 + e.val, by omega⟩ : Fin 8192) o)
      = lW (ix3 cc (⟨e.val, by omega⟩ : Fin 512) o))
    (h9 : ∀ (cc : Fin 32) (e : Fin 256), x9 (ix2 (⟨cc.val * 256 + e.val, by omega⟩ : Fin 8192) o)
      = lW (ix3 cc (⟨256 + e.val, by omega⟩ : Fin 512) o)) :
    blockOut x0 x1 x2 x3 x4 x5 x6 x7 x8 x9 p o = outRow st ob cat oW oB sW sB lW lB b o := by
  have hstate : ∀ e : Fin 256, blockState x0 x1 x3 x7 p e = stateEmb st cat sW sB b e := by
    intro e
    unfold blockState stateEmb
    simp only [h0, h3 e]
    congr 2
    exact sum_zero_padded _ _
      (fun d hd => by rw [h1lo d hd, h7lo (catRow (cat (ix1 b))) d e hd])
      (fun d hd => by rw [h1hi d hd, h7hi (catRow (cat (ix1 b))) d e hd, mul_zero])
  have hobs : ∀ e : Fin 256, blockObs x2 x5 x6 p e = obsEmb ob oW oB b e := by
    intro e
    unfold blockObs obsEmb
    rw [h6 e]
    congr 1
    exact Finset.sum_congr rfl fun k _ => by rw [h2 k, h5 k e]
  unfold blockOut outRow
  simp only [h0, h4]
  refine congrArg₂ (· + ·) (congrArg₂ (· + ·) ?_ ?_) rfl
  · exact Finset.sum_congr rfl fun e _ => by rw [hstate e, h8 (catRow (cat (ix1 b))) e]
  · exact Finset.sum_congr rfl fun e _ => by rw [hobs e, h9 (catRow (cat (ix1 b))) e]

end

end Cert.Spec

end
-- ==== Proof.Blocks.lean ====
/-
  From the sixteen blocks to the whole result array.

  Point t of the grid works on rows 128·t … 128·t + 127: the five row-blocked inputs and the output are cut at block
  (t, 0), and the five tables are handed over whole at every point. So the block entries the body reads at row p are the
  launched arrays' entries at row b = 128·t + p, and what the body stores at (p, o) — `Spec.blockOut` of the blocks — is
  `Spec.outRow` of the arguments at (b, o). The sixteen blocks tile all 2048 rows, so after the run the result array is
  `Spec.G2` of the arguments everywhere.
-/
import proofs.«411071_j61821759259471_3_alg».proof.Proof.Gen.KernelIdeal.Frame
import proofs.«411071_j61821759259471_3_alg».proof.Proof.PayloadBlock
import proofs.«411071_j61821759259471_3_alg».proof.Proof.HostIndex
import proofs.«411071_j61821759259471_3_alg».proof.Proof.SpecBridge
import Idealize.ShloMosaic.Lib.Pipeline.Value

set_option maxRecDepth 16384

noncomputable section

namespace Cert.KernelIdeal.Blocks

open Cert.KernelIdeal Cert.KernelIdeal.Gen Cert.KernelIdeal.HostArrays Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps over the grid: the row-blocked windows sit at block (t, 0), the tables at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

theorem t_lt (t : Fin cfg0.N) : t.val < 16 := by
  have h := t.isLt
  have hN : cfg0.N = 16 := N_0
  omega

/-- The array row that row p of point t's blocks is. -/
def rowOf (t : Fin cfg0.N) (p : Fin 128) : Fin 2048 := ⟨t.val * 128 + p.val, by have := t_lt t; omega⟩

/-! ## What each window's block holds at a point -/

theorem read_cat (c : Dev nD) (t : Fin cfg0.N) (p : Fin 128) :
    (iblk m c 0 t : IVec S128x1 32) (ix2 p (0 : Fin 1)) = tCat m c (ix2 (rowOf t p) (0 : Fin 1)) := by
  rw [← V_cat]
  show V m c main_v15 (((cfg0.win 0).blk t).view.emb (ix2 p (0 : Fin 1))) = V m c main_v15 (ix2 (rowOf t p) (0 : Fin 1))
  refine congrArg (V m c main_v15) (funext fun a => Fin.ext ?_)
  obtain ⟨e0, e1, -⟩ := idx_facts t
  match a with
  | ⟨0, _⟩ => show win0_0.index t (0 : Fin 2) * 128 + 1 * p.val = t.val * 128 + p.val; omega
  | ⟨1, _⟩ => show win0_0.index t (1 : Fin 2) * 1 + 1 * 0 = 0; omega

theorem read_state (c : Dev nD) (t : Fin cfg0.N) (p : Fin 128) (d : Fin 128) :
    (iblk m c 1 t : FVec Ideal S128x128 .f32) (ix2 p d) = tState m c (ix2 (rowOf t p) d) := by
  rw [← V_state]
  show V m c main_v16 (((cfg0.win 1).blk t).view.emb (ix2 p d)) = V m c main_v16 (ix2 (rowOf t p) d)
  refine congrArg (V m c main_v16) (funext fun a => Fin.ext ?_)
  obtain ⟨-, -, e0, e1, -⟩ := idx_facts t
  match a with
  | ⟨0, _⟩ => show win0_1.index t (0 : Fin 2) * 128 + 1 * p.val = t.val * 128 + p.val; omega
  | ⟨1, _⟩ => show win0_1.index t (1 : Fin 2) * 128 + 1 * d.val = d.val; omega

theorem read_obs (c : Dev nD) (t : Fin cfg0.N) (p : Fin 128) (k : Fin 512) :
    (iblk m c 2 t : FVec Ideal S128x512 .f32) (ix2 p k) = tObs m c (ix2 (rowOf t p) k) := by
  rw [← V_obs]
  show V m c main_v17 (((cfg0.win 2).blk t).view.emb (ix2 p k)) = V m c main_v17 (ix2 (rowOf t p) k)
  refine congrArg (V m c main_v17) (funext fun a => Fin.ext ?_)
  obtain ⟨-, -, -, -, e0, e1, -⟩ := idx_facts t
  match a with
  | ⟨0, _⟩ => show win0_2.index t (0 : Fin 2) * 128 + 1 * p.val = t.val * 128 + p.val; omega
  | ⟨1, _⟩ => show win0_2.index t (1 : Fin 2) * 512 + 1 * k.val = k.val; omega

theorem read_stateBias (c : Dev nD) (t : Fin cfg0.N) (p : Fin 128) (e : Fin 256) :
    (iblk m c 3 t : FVec Ideal S128x256 .f32) (ix2 p e) = tStateBias m c (ix2 (rowOf t p) e) := by
  rw [← V_stateBias]
  show V m c main_v7 (((cfg0.win 3).blk t).view.emb (ix2 p e)) = V m c main_v7 (ix2 (rowOf t p) e)
  refine congrArg (V m c main_v7) (funext fun a => Fin.ext ?_)
  obtain ⟨-, -, -, -, -, -, e0, e1, -⟩ := idx_facts t
  match a with
  | ⟨0, _⟩ => show win0_3.index t (0 : Fin 2) * 128 + 1 * p.val = t.val * 128 + p.val; omega
  | ⟨1, _⟩ => show win0_3.index t (1 : Fin 2) * 256 + 1 * e.val = e.val; omega

theorem read_l2Bias (c : Dev nD) (t : Fin cfg0.N) (p : Fin 128) (o : Fin 256) :
    (iblk m c 4 t : FVec Ideal S128x256 .f32) (ix2 p o) = tL2Bias m c (ix2 (rowOf t p) o) := by
  rw [← V_l2Bias]
  show V m c main_v14 (((cfg0.win 4).blk t).view.emb (ix2 p o)) = V m c main_v14 (ix2 (rowOf t p) o)
  refine congrArg (V m c main_v14) (funext fun a => Fin.ext ?_)
  obtain ⟨-, -, -, -, -, -, -, -, e0, e1, -⟩ := idx_facts t
  match a with
  | ⟨0, _⟩ => show win0_4.index t (0 : Fin 2) * 128 + 1 * p.val = t.val * 128 + p.val; omega
  | ⟨1, _⟩ => show win0_4.index t (1 : Fin 2) * 256 + 1 * o.val = o.val; omega

theorem read_obsW (c : Dev nD) (t : Fin cfg0.N) (k : Fin 512) (e : Fin 256) :
    (iblk m c 5 t : FVec Ideal S512x256 .bf16) (ix2 k e) = tObsW m c (ix2 k e) := by
  rw [← V_obsW]
  show V m c main_v18 (((cfg0.win 5).blk t).view.emb (ix2 k e)) = V m c main_v18 (ix2 k e)
  refine congrArg (V m c main_v18) (funext fun a => Fin.ext ?_)
  obtain ⟨-, -, -, -, -, -, -, -, -, -, e0, e1, -⟩ := idx_facts t
  match a with
  | ⟨0, _⟩ => show win0_5.index t (0 : Fin 2) * 512 + 1 * k.val = k.val; omega
  | ⟨1, _⟩ => show win0_5.index t (1 : Fin 2) * 256 + 1 * e.val = e.val; omega

theorem read_obsB (c : Dev nD) (t : Fin cfg0.N) (e : Fin 256) :
    (iblk m c 6 t : FVec Ideal S1x256 .f32) (ix2 (0 : Fin 1) e) = tObsB m c (ix2 (0 : Fin 1) e) := by
  rw [← V_obsB]
  show V m c main_v19 (((cfg0.win 6).blk t).view.emb (ix2 (0 : Fin 1) e)) = V m c main_v19 (ix2 (0 : Fin 1) e)
  refine congrArg (V m c main_v19) (funext fun a => Fin.ext ?_)
  obtain ⟨-, -, -, -, -, -, -, -, -, -, -, -, e0, e1, -⟩ := idx_facts t
  match a with
  | ⟨0, _⟩ => show win0_6.index t (0 : Fin 2) * 1 + 1 * 0 = 0; omega
  | ⟨1, _⟩ => show win0_6.index t (1 : Fin 2) * 256 + 1 * e.val = e.val; omega

theorem read_stateW (c : Dev nD) (t : Fin cfg0.N) (j : Fin 4096) (e : Fin 256) :
    (iblk m c 7 t : FVec Ideal S4096x256 .bf16) (ix2 j e) = tStateW m c (ix2 j e) := by
  rw [← V_stateW]
  show V m c main_v22 (((cfg0.win 7).blk t).view.emb (ix2 j e)) = V m c main_v22 (ix2 j e)
  refine congrArg (V m c main_v22) (funext fun a => Fin.ext ?_)
  obtain ⟨-, -, -, -, -, -, -, -, -, -, -, -, -, -, e0, e1, -⟩ := idx_facts t
  match a with
  | ⟨0, _⟩ => show win0_7.index t (0 : Fin 2) * 4096 + 1 * j.val = j.val; omega
  | ⟨1, _⟩ => show win0_7.index t (1 : Fin 2) * 256 + 1 * e.val = e.val; omega

theorem read_l2WState (c : Dev nD) (t : Fin cfg0.N) (j : Fin 8192) (o : Fin 256) :
    (iblk m c 8 t : FVec Ideal S8192x256 .bf16) (ix2 j o) = tL2WState m c (ix2 j o) := by
  rw [← V_l2WState]
  show V m c main_v26 (((cfg0.win 8).blk t).view.emb (ix2 j o)) = V m c main_v26 (ix2 j o)
  refine congrArg (V m c main_v26) (funext fun a => Fin.ext ?_)
  obtain ⟨-, -, -, -, -, -, -, -, -, -, -, -, -, -, -, -, e0, e1, -⟩ := idx_facts t
  match a with
  | ⟨0, _⟩ => show win0_8.index t (0 : Fin 2) * 8192 + 1 * j.val = j.val; omega
  | ⟨1, _⟩ => show win0_8.index t (1 : Fin 2) * 256 + 1 * o.val = o.val; omega

theorem read_l2WObs (c : Dev nD) (t : Fin cfg0.N) (j : Fin 8192) (o : Fin 256) :
    (iblk m c 9 t : FVec Ideal S8192x256 .bf16) (ix2 j o) = tL2WObs m c (ix2 j o) := by
  rw [← V_l2WObs]
  show V m c main_v28 (((cfg0.win 9).blk t).view.emb (ix2 j o)) = V m c main_v28 (ix2 j o)
  refine congrArg (V m c main_v28) (funext fun a => Fin.ext ?_)
  obtain ⟨-, -, -, -, -, -, -, -, -, -, -, -, -, -, -, -, -, -, e0, e1, -⟩ := idx_facts t
  match a with
  | ⟨0, _⟩ => show win0_9.index t (0 : Fin 2) * 8192 + 1 * j.val = j.val; omega
  | ⟨1, _⟩ => show win0_9.index t (1 : Fin 2) * 256 + 1 * o.val = o.val; omega

end Cert.KernelIdeal.Blocks

end
-- ==== Proof.BlocksFinal.lean ====
/-
  What point t writes back is block t of `Spec.G2` of the arguments, and the sixteen blocks cover the result array.
-/
import proofs.«411071_j61821759259471_3_alg».proof.Proof.Blocks

set_option maxRecDepth 16384

noncomputable section

namespace Cert.KernelIdeal.Blocks

open Cert.KernelIdeal Cert.KernelIdeal.Gen Cert.KernelIdeal.HostArrays Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ)

/-- The whole result as the specification gives it, over core c's arguments. -/
abbrev resultOf (c : Dev nD) : FVec Ideal S2048x256 .f32 :=
  Spec.G2 (aState m c) (aObs m c) (aCat m c) (aObsW m c) (aObsB m c) (aStateW m c) (aStateB m c) (aL2W m c) (aL2B m c)

/-- The value stored at (p, o) of point t's output block is the specification at row 128·t + p. -/
theorem stored_eq (c : Dev nD) (t : Fin cfg0.N) (p : Fin 128) (o : Fin 256)
    (hcat : ∀ b : Fin 2048, (aCat m c (ix1 b)).toNat < 32) :
    k0_pay1 (F := Ideal) (k0_pay6 (F := Ideal) (k0_pay2 (F := Ideal) (iblk m c 0 t)) (k0_pay4 (F := Ideal) (iblk m c 1 t)) k0_pay5
        (iblk m c 7 t) (iblk m c 3 t))
        (k0_pay7 (F := Ideal) (k0_pay3 (F := Ideal) (iblk m c 2 t) (iblk m c 5 t) (iblk m c 6 t)))
        (k0_pay8 (F := Ideal) (k0_pay2 (F := Ideal) (iblk m c 0 t))) (iblk m c 8 t) (iblk m c 9 t) (iblk m c 4 t) (ix2 p o)
      = resultOf m c (ix2 (rowOf t p) o) := by
  have h0 : (iblk m c 0 t : IVec S128x1 32) (ix2 p (0 : Fin 1)) = aCat m c (ix1 (rowOf t p)) := by
    rw [read_cat, tCat_apply m c (rowOf t p) (hcat _)]
  refine (Payload.payload_eq_blockOut (iblk m c 0 t) (iblk m c 1 t) (iblk m c 2 t) (iblk m c 3 t) (iblk m c 4 t) (iblk m c 5 t)
    (iblk m c 6 t) (iblk m c 7 t) (iblk m c 8 t) (iblk m c 9 t) p o (by rw [h0]; exact hcat _)).trans ?_
  show _ = Spec.outRow (aState m c) (aObs m c) (aCat m c) (aObsW m c) (aObsB m c) (aStateW m c) (aStateB m c) (aL2W m c) (aL2B m c)
    (rowOf t p) o
  exact Spec.blockOut_eq_outRow (aState m c) (aObs m c) (aCat m c) (aObsW m c) (aObsB m c) (aStateW m c) (aStateB m c) (aL2W m c)
    (aL2B m c) (iblk m c 0 t) (iblk m c 1 t) (iblk m c 2 t) (iblk m c 3 t) (iblk m c 4 t) (iblk m c 5 t) (iblk m c 6 t) (iblk m c 7 t)
    (iblk m c 8 t) (iblk m c 9 t) (rowOf t p) p o h0
    (fun d hd => by rw [read_state, tState_lo m c _ d hd])
    (fun d hd => by rw [read_state, tState_hi m c _ d hd])
    (fun k => by rw [read_obs, tObs_apply])
    (fun e => by rw [read_stateBias, tStateBias_apply m c _ e (hcat _)])
    (by rw [read_l2Bias, tL2Bias_apply m c _ o (hcat _)])
    (fun k e => by rw [read_obsW, tObsW_apply])
    (fun e => by rw [read_obsB, tObsB_apply])
    (fun cc d e hd => by rw [read_stateW, tStateW_lo m c cc d e hd])
    (fun cc d e hd => by rw [read_stateW, tStateW_hi m c cc d e hd])
    (fun cc e => by rw [read_l2WState, tL2WState_apply])
    (fun cc e => by rw [read_l2WObs, tL2WObs_apply])

/-- WHAT POINT t WRITES BACK is block t of the specification's result. -/
theorem flushed_eq (c : Dev nD) (hcat : ∀ b : Fin 2048, (aCat m c (ix1 b)).toNat < 32) (t : Fin cfg0.N) :
    (dats m 0 c).flushed 10 t = ((cfg0.win 10).blk t).view.read (Elt Ideal) (resultOf m c) := by
  show (cfg0.win 10).cut (grid0.coords t) ((dats m 0 c).after 10 t) = _
  rw [after0_10]
  unfold out0_10
  rw [View.canon_unit_zero hz]
  simp only [View.ld_unit_zero (S := S128x1) hz, View.ld_unit_zero (S := S128x128) hz, View.ld_unit_zero (S := S128x512) hz,
    View.ld_unit_zero (S := S128x256) hz, View.ld_unit_zero (S := S512x256) hz, View.ld_unit_zero (S := S1x256) hz,
    View.ld_unit_zero (S := S4096x256) hz, View.ld_unit_zero (S := S8192x256) hz]
  funext j
  obtain ⟨p, o, rfl⟩ : ∃ (p : Fin 128) (o : Fin 256), j = ix2 p o := ⟨j 0, j 1, eq_ix2 j⟩
  refine (stored_eq m c t p o hcat).trans ?_
  show resultOf m c (ix2 (rowOf t p) o) = resultOf m c (((cfg0.win 10).blk t).view.emb (ix2 p o))
  refine congrArg (resultOf m c) (funext fun a => Fin.ext ?_)
  obtain ⟨-, -, -, -, -, -, -, -, -, -, -, -, -, -, -, -, -, -, -, -, e0, e1⟩ := idx_facts t
  match a with
  | ⟨0, _⟩ => show t.val * 128 + p.val = win0_10.index t (0 : Fin 2) * 128 + 1 * p.val; omega
  | ⟨1, _⟩ => show o.val = win0_10.index t (1 : Fin 2) * 256 + 1 * o.val; omega

/-- An index of the result array is in point t's block iff each coordinate is in the block's range on its axis. -/
theorem mem_blk (t : Fin cfg0.N) (i : S2048x256.Idx) :
    i ∈ ((cfg0.win 10).blk t).view.set ↔ ∀ a : Fin 2, win0_10.index t a * S128x256.size a ≤ (i a).val
      ∧ (i a).val < win0_10.index t a * S128x256.size a + S128x256.size a := by
  show i ∈ ((View.whole main_v29).slice (win0_10.rect t)).set ↔ _
  rw [View.set_slice_whole, Rect.mem_set_unit]
  exact Iff.rfl

/-- THE RESULT ARRAY after the run is the specification's result. -/
theorem final (c : Dev nD) (hcat : ∀ b : Fin 2048, (aCat m c (ix1 b)).toNat < 32) :
    (dats m 0 c).arrAt 10 cfg0.N = resultOf m c :=
  (dats m 0 c).arrAt_eq_of_cover 10 (resultOf m c) (fun t _ => flushed_eq m c hcat t) fun i => by
    have hi0 : (i 0).val < 2048 := (i 0).isLt
    have hi1 : (i 1).val < 256 := (i 1).isLt
    have hN : cfg0.N = 16 := N_0
    refine ⟨⟨(i 0).val / 128, by rw [hN]; omega⟩, flush0_10 _, ?_⟩
    rw [mem_blk]
    obtain ⟨-, -, -, -, -, -, -, -, -, -, -, -, -, -, -, -, -, -, -, -, e0, e1⟩ :=
      idx_facts (⟨(i 0).val / 128, by rw [hN]; omega⟩ : Fin cfg0.N)
    intro a
    match a with
    | ⟨0, _⟩ =>
      show win0_10.index _ (0 : Fin 2) * 128 ≤ (i 0).val ∧ (i 0).val < win0_10.index _ (0 : Fin 2) * 128 + 128
      rw [e0]; show (i 0).val / 128 * 128 ≤ (i 0).val ∧ (i 0).val < (i 0).val / 128 * 128 + 128; omega
    | ⟨1, _⟩ =>
      show win0_10.index _ (1 : Fin 2) * 256 ≤ (i 1).val ∧ (i 1).val < win0_10.index _ (1 : Fin 2) * 256 + 256
      rw [e1]; omega

end Cert.KernelIdeal.Blocks

end
-- ==== Proof.KernelRun.lean ====
/-
  The idealized kernel's run, read: every weakly fair execution terminates with the result buffer at `Spec.G3` of the
  arguments and the arguments unchanged, when every label is a number below 32.

  After the region the program only re-lays the [2048, 256] result array as [2048, 1, 256], so the returned buffer at
  (b, 0, o) is the result array at (b, o), which is the specification's row b at output o.
-/
import proofs.«411071_j61821759259471_3_alg».proof.Proof.BlocksFinal
import Idealize.ShloMosaic.Lib.StableHlo.Run

set_option maxRecDepth 16384

noncomputable section

namespace Cert.KernelIdeal.KernelRun

open Cert.KernelIdeal Cert.KernelIdeal.Gen Cert.KernelIdeal.HostArrays Cert.KernelIdeal.Blocks
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

/-- The returned result over core c's arguments. -/
abbrev returnedOf (c : Dev nD) : FVec Ideal S2048x1x256 .f32 :=
  Spec.G3 (aState m c) (aObs m c) (aCat m c) (aObsW m c) (aObsB m c) (aStateW m c) (aStateB m c) (aL2W m c) (aL2B m c)

/-- What the program's last line leaves in the returned buffer. -/
theorem tail_eq (c : Dev nD) (hcat : ∀ b : Fin 2048, (aCat m c (ix1 b)).toNat < 32) :
    (Pipeline.afterTail₀ cfgs (dats m) 0 (V0 m) [hostOps1] c main_v30 : FVec Ideal S2048x1x256 .f32) = returnedOf m c := by
  have hw : Pipeline.withArrays (cfgs 0).spec c (V0 m c) (fun w => (dats m 0 c).arrAt w (cfgs 0).N) (Proc.devRef .tc main_v29)
      = resultOf m c :=
    (Pipeline.withArrays_arr spec0 launch0.win.arr_inj c _ _ 10).trans (final m c hcat)
  unfold Pipeline.afterTail₀
  show StableHlo.after hostOps1 _ (Proc.devRef .tc main_v30) = _
  after_results
  funext i
  show shapeCast S2048x1x256 (Pipeline.withArrays (cfgs 0).spec c (V0 m c) (fun w => (dats m 0 c).arrAt w (cfgs 0).N)
    (Proc.devRef .tc main_v29)) shapeCasts_S2048x256_S2048x1x256 i = _
  rw [hw]
  obtain ⟨b, u, o, rfl⟩ : ∃ (b : Fin 2048) (u : Fin 1) (o : Fin 256), i = ix3 b u o := ⟨i 0, i 1, i 2, eq_ix3 i⟩
  rw [shapeCast_apply (resultOf m c) shapeCasts_S2048x256_S2048x1x256 (ix3 b u o) (ix2 b o) (by
    rw [Shape.rowMajor_val_two, Shape.rowMajor_val_three]
    show b.val * 256 + o.val = (b.val * 1 + u.val) * 256 + o.val
    have := u.isLt; omega)]
  rfl

/-- THE KERNEL'S RUN. -/
theorem run (hcat : ∀ (c : Dev nD) (b : Fin 2048), (aCat m c (ix1 b)).toNat < 32) :
    θ_run defs (onTc (τ := τ) (main (F := Ideal))) ⟨m, fun _ => 0, ρ⟩ (fun r => ∀ c : Dev nD,
      r.2.mem ((c.tc : Thread nD τ).loc main_v30) = returnedOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v30 (Pipeline.mem_restRefs_of main_v30 (by decide) (by decide))).trans (tail_eq m c (hcat c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.KernelRun

end
-- ==== Proof.LibSlabGather.lean ====
/-
  A gather of whole slabs read at an index. `table[idx]` over a rank-3 table [N, D1, D2] at a vector of n leading-axis
  numbers prints as a `stablehlo.gather` whose start indices are the [n, 1] column of those numbers, whose operand axis 0
  is collapsed and start-indexed, whose operand axes 1 and 2 are the two offset axes in order, and whose slices are whole
  slabs [1, D1, D2]. Result element (p, q, r) is the table at (slab, q, r), the slab being position p's start index read as
  a signed integer and clamped into [0, N − 1]: the rank-3 companion of the row gather.
-/
import Idealize.ShloMosaic.PureOps.ShapeOps
import Idealize.ShloMosaic.Lib.ValueIdx
import proofs.«411071_j61821759259471_3_alg».proof.Proof.LibRowGather

namespace Idealize.ShloMosaic.RowGather

open Idealize.ShloMosaic Idealize.ShloMosaic.ValueIdx

/-- A rank-3 index read on the axis numbered 0, 1 or 2 is its first, second or third coordinate. -/
theorem ix3_val_zero {n0 n1 n2 : Nat} (a : Fin n0) (b : Fin n1) (c : Fin n2) (i : Fin 3) (hi : i.val = 0) :
    (ix3 a b c i).val = a.val := by
  match i, hi with
  | ⟨0, _⟩, _ => rfl
theorem ix3_val_one {n0 n1 n2 : Nat} (a : Fin n0) (b : Fin n1) (c : Fin n2) (i : Fin 3) (hi : i.val = 1) :
    (ix3 a b c i).val = b.val := by
  match i, hi with
  | ⟨1, _⟩, _ => rfl
theorem ix3_val_two {n0 n1 n2 : Nat} (a : Fin n0) (b : Fin n1) (c : Fin n2) (i : Fin 3) (hi : i.val = 2) :
    (ix3 a b c i).val = c.val := by
  match i, hi with
  | ⟨2, _⟩, _ => rfl

/-- THE SLAB GATHER AT (p, q, r): the table at (the clamped start slab of position p, q, r). The five hypotheses are the
    printed dimension numbers, each by `rfl` at a program's record. -/
theorem gather_slabs_apply {α : Type} {N D1 D2 n w : Nat}
    (d : GatherDims ⟨3, ![N, D1, D2]⟩ ⟨2, ![n, 1]⟩ ⟨3, ![n, D1, D2]⟩)
    (hoff : d.offsetDims = [1, 2]) (hcoll : d.collapsedSliceDims = [0]) (hob : d.operandBatchingDims = [])
    (hsim : d.startIndexMap = [0]) (hivd : d.indexVectorDim = 1)
    (x : (⟨3, ![N, D1, D2]⟩ : Shape).Idx → α) (idx : IVec ⟨2, ![n, 1]⟩ w) (p : Fin n) (q : Fin D1) (r : Fin D2) (hN : 0 < N) :
    Host.gather d x idx (ix3 p q r)
      = x (ix3 (clampRow N hN (idx (ix2 p (0 : Fin 1)))) q r) := by
  unfold Host.gather clampRow
  congr 1
  funext a
  apply Fin.ext
  have hb : ∀ a : Fin 3, a ∉ d.operandBatchingDims := fun a => by rw [hob]; exact List.not_mem_nil
  -- the result's batch axes are all axis 0
  have hbatch : ∀ a ∈ d.batchDims, a.val = 0 := by
    intro a ha
    have hna : a ∉ d.offsetDims := by
      have := (List.mem_filter.mp ha).2
      simpa using this
    rw [hoff] at hna
    have h3 : a.val < 3 := a.isLt
    by_contra hne
    apply hna
    have h12 : a.val = 1 ∨ a.val = 2 := by omega
    rcases h12 with h | h
    · exact List.mem_cons.mpr (Or.inl (Fin.ext h))
    · exact List.mem_cons.mpr (Or.inr (List.mem_singleton.mpr (Fin.ext h)))
  -- the operand's kept axes are 1 and 2, read by the result's offset axes 1 and 2 in that order
  have hsk : d.sKept = [1, 2] := by
    show (⟨3, ![N, D1, D2]⟩ : Shape).kept (d.collapsedSliceDims ++ d.operandBatchingDims) = [1, 2]
    rw [hcoll, hob]; rfl
  have key : ∀ (k : ℕ) (hk' : k < d.offsetDims.length), (d.offsetDims[k]'hk').val = k + 1 := by
    intro k hk'
    rw [List.getElem_of_eq hoff hk']
    have hk2 : k < 2 := by rw [hoff] at hk'; simpa using hk'
    interval_cases k <;> rfl
  match a with
  | ⟨0, _⟩ =>
    have hk : (0 : Fin 3) ∉ d.sKept := by rw [hsk]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 p q r) idx 0 + d.batchCoord (ix3 p q r) 0 + d.offCoord (ix3 p q r) 0 = min _ (N - 1)
    rw [d.batchCoord_eq_zero _ _ (hb 0), d.offCoord_eq_zero _ _ hk]
    simp only [Nat.add_zero]
    unfold GatherDims.start
    rw [dif_pos hm]
    have hsi : d.siIdx (ix3 p q r) ⟨d.startIndexMap.idxOf (0 : Fin 3), List.idxOf_lt_length_iff.2 hm⟩ = ix2 p (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact ix3_val_zero p q r _ (hbatch _ (List.getElem_mem _))
      | ⟨1, _⟩ =>
        unfold GatherDims.siIdx
        rw [dif_pos (by rw [hivd])]
        show List.idxOf (0 : Fin 3) d.startIndexMap = 0
        rw [hsim]; simp
    rw [hsi]
    show min (idx (ix2 p 0)).toInt.toNat (N - d.sliceSizes 0) = _
    rw [hsl]
  | ⟨1, _⟩ =>
    have hk : (1 : Fin 3) ∈ d.sKept := by rw [hsk]; simp
    have hm : (1 : Fin 3) ∉ d.startIndexMap := by rw [hsim]; simp
    have hidx : List.idxOf (1 : Fin 3) d.sKept = 0 := by rw [hsk]; rfl
    show d.start (ix3 p q r) idx 1 + d.batchCoord (ix3 p q r) 1 + d.offCoord (ix3 p q r) 1 = q.val
    rw [d.batchCoord_eq_zero _ _ (hb 1)]
    simp only [Nat.add_zero]
    unfold GatherDims.start
    rw [dif_neg hm, Nat.zero_add]
    unfold GatherDims.offCoord
    rw [dif_pos hk]
    exact ix3_val_one p q r _ ((key _ _).trans (by rw [hidx]))
  | ⟨2, _⟩ =>
    have hk : (2 : Fin 3) ∈ d.sKept := by rw [hsk]; simp
    have hm : (2 : Fin 3) ∉ d.startIndexMap := by rw [hsim]; simp
    have hidx : List.idxOf (2 : Fin 3) d.sKept = 1 := by rw [hsk]; rfl
    show d.start (ix3 p q r) idx 2 + d.batchCoord (ix3 p q r) 2 + d.offCoord (ix3 p q r) 2 = r.val
    rw [d.batchCoord_eq_zero _ _ (hb 2)]
    simp only [Nat.add_zero]
    unfold GatherDims.start
    rw [dif_neg hm, Nat.zero_add]
    unfold GatherDims.offCoord
    rw [dif_pos hk]
    exact ix3_val_two p q r _ ((key _ _).trans (by rw [hidx]))

end Idealize.ShloMosaic.RowGather
-- ==== Proof.RefValue.lean ====
/-
  The reference computes `Spec.G3` of its arguments, when every label is a number below 32.

  The reference indexes its tables with the labels after wrapping a negative index around; a label below 32 is not
  negative, so each wrapped start index is the label, and each gather (of a bias row, or of a whole weight slab) reads the
  label's own category. The state's layer is then the sum over the 64 state inputs against that category's slab plus its
  bias row, rectified; the observation's layer the sum over the 512 inputs plus the bias; and the last layer's sum over
  the 512 joined inputs splits, at the join, into the sum over the 256 state features and the sum over the 256
  observation features against rows e and 256 + e of the category's slab.
-/
import proofs.«411071_j61821759259471_3_alg».proof.Proof.Gen.ReferenceIdeal.Read
import proofs.«411071_j61821759259471_3_alg».proof.Proof.SpecBridge
import proofs.«411071_j61821759259471_3_alg».proof.Proof.LibLabelWords
import proofs.«411071_j61821759259471_3_alg».proof.Proof.LibRowGather
import proofs.«411071_j61821759259471_3_alg».proof.Proof.LibSlabGather
import Mathlib.Algebra.BigOperators.Fin

noncomputable section

namespace Cert.ReferenceIdeal.RefValue

open Cert.ReferenceIdeal Cert.ReferenceIdeal.Gen Cert.ReferenceIdeal.Read Idealize.ShloMosaic Idealize.ShloMosaic.ValueIdx

variable (x0 : FVec Ideal S2048x64 .f32) (x1 : FVec Ideal S2048x1x512 .f32) (x2 : IVec S2048 32) (x3 : FVec Ideal S512x256 .f32)
  (x4 : FVec Ideal S256 .f32) (x5 : FVec Ideal S32x64x256 .f32) (x6 : FVec Ideal S32x256 .f32) (x7 : FVec Ideal S32x512x256 .f32)
  (x8 : FVec Ideal S32x256 .f32)

/-- The clamped start row of a table of 32 rows is the label's category. -/
theorem clampRow_eq_catRow (x : BitVec 32) (h : 0 < 32) : RowGather.clampRow 32 h x = Spec.catRow x := Fin.ext rfl

/-! ## The four wrapped start indices are the label -/

theorem wrapStateW (b : Fin 2048) (h : (x2 (ix1 b)).toNat < 32) : val_main_v9 (F := Ideal) x2 (ix1 b) = x2 (ix1 b) := by
  rw [val_main_v9_apply, val_main_v6_apply, val_main_v8_apply, val_main_v5_apply, val_main_v7_apply, val_main_c_apply, val_main_c_0_apply]
  exact LabelWords.wrap_of_small _ _ (by omega)
theorem wrapStateB (b : Fin 2048) (h : (x2 (ix1 b)).toNat < 32) : val_main_v16 (F := Ideal) x2 (ix1 b) = x2 (ix1 b) := by
  rw [val_main_v16_apply, val_main_v13_apply, val_main_v15_apply, val_main_v12_apply, val_main_v14_apply, val_main_c_1_apply, val_main_c_2_apply]
  exact LabelWords.wrap_of_small _ _ (by omega)
theorem wrapL2W (b : Fin 2048) (h : (x2 (ix1 b)).toNat < 32) : val_main_v28 (F := Ideal) x2 (ix1 b) = x2 (ix1 b) := by
  rw [val_main_v28_apply, val_main_v25_apply, val_main_v27_apply, val_main_v24_apply, val_main_v26_apply, val_main_c_3_apply, val_main_c_4_apply]
  exact LabelWords.wrap_of_small _ _ (by omega)
theorem wrapL2B (b : Fin 2048) (h : (x2 (ix1 b)).toNat < 32) : val_main_v35 (F := Ideal) x2 (ix1 b) = x2 (ix1 b) := by
  rw [val_main_v35_apply, val_main_v32_apply, val_main_v34_apply, val_main_v31_apply, val_main_v33_apply, val_main_c_5_apply, val_main_c_6_apply]
  exact LabelWords.wrap_of_small _ _ (by omega)

theorem colStateW (b : Fin 2048) (h : (x2 (ix1 b)).toNat < 32) : val_main_v10 (F := Ideal) x2 (ix2 b (0 : Fin 1)) = x2 (ix1 b) := by
  rw [val_main_v10_apply, show idx_main_v10 (ix2 b (0 : Fin 1)) = ix1 b from funext fun a => Fin.ext (by match a with | ⟨0, _⟩ => rfl)]
  exact wrapStateW x2 b h
theorem colStateB (b : Fin 2048) (h : (x2 (ix1 b)).toNat < 32) : val_main_v17 (F := Ideal) x2 (ix2 b (0 : Fin 1)) = x2 (ix1 b) := by
  rw [val_main_v17_apply, show idx_main_v17 (ix2 b (0 : Fin 1)) = ix1 b from funext fun a => Fin.ext (by match a with | ⟨0, _⟩ => rfl)]
  exact wrapStateB x2 b h
theorem colL2W (b : Fin 2048) (h : (x2 (ix1 b)).toNat < 32) : val_main_v29 (F := Ideal) x2 (ix2 b (0 : Fin 1)) = x2 (ix1 b) := by
  rw [val_main_v29_apply, show idx_main_v29 (ix2 b (0 : Fin 1)) = ix1 b from funext fun a => Fin.ext (by match a with | ⟨0, _⟩ => rfl)]
  exact wrapL2W x2 b h
theorem colL2B (b : Fin 2048) (h : (x2 (ix1 b)).toNat < 32) : val_main_v36 (F := Ideal) x2 (ix2 b (0 : Fin 1)) = x2 (ix1 b) := by
  rw [val_main_v36_apply, show idx_main_v36 (ix2 b (0 : Fin 1)) = ix1 b from funext fun a => Fin.ext (by match a with | ⟨0, _⟩ => rfl)]
  exact wrapL2B x2 b h

/-! ## The four gathers read the label's category -/

theorem gatherStateW (b : Fin 2048) (k : Fin 64) (e : Fin 256) (h : (x2 (ix1 b)).toNat < 32) :
    val_main_v11 (F := Ideal) x2 x5 (ix3 b k e) = x5 (ix3 (Spec.catRow (x2 (ix1 b))) k e) := by
  unfold val_main_v11
  rw [RowGather.gather_slabs_apply gather_S32x64x256_S2048x1_S2048x64x256_12_0_n_n_0_1_164256 rfl rfl rfl rfl rfl x5
    (val_main_v10 (F := Ideal) x2) b k e (by omega), colStateW x2 b h, clampRow_eq_catRow]
theorem gatherStateB (b : Fin 2048) (e : Fin 256) (h : (x2 (ix1 b)).toNat < 32) :
    val_main_v18 (F := Ideal) x2 x6 (ix2 b e) = x6 (ix2 (Spec.catRow (x2 (ix1 b))) e) := by
  unfold val_main_v18
  rw [RowGather.gather_rows_apply gather_S32x256_S2048x1_S2048x256_1_0_n_n_0_1_1256 rfl rfl rfl rfl rfl x6
    (val_main_v17 (F := Ideal) x2) b e (by omega), colStateB x2 b h, clampRow_eq_catRow]
theorem gatherL2W (b : Fin 2048) (k : Fin 512) (o : Fin 256) (h : (x2 (ix1 b)).toNat < 32) :
    val_main_v30 (F := Ideal) x2 x7 (ix3 b k o) = x7 (ix3 (Spec.catRow (x2 (ix1 b))) k o) := by
  unfold val_main_v30
  rw [RowGather.gather_slabs_apply gather_S32x512x256_S2048x1_S2048x512x256_12_0_n_n_0_1_1512256 rfl rfl rfl rfl rfl x7
    (val_main_v29 (F := Ideal) x2) b k o (by omega), colL2W x2 b h, clampRow_eq_catRow]
theorem gatherL2B (b : Fin 2048) (o : Fin 256) (h : (x2 (ix1 b)).toNat < 32) :
    val_main_v37 (F := Ideal) x2 x8 (ix2 b o) = x8 (ix2 (Spec.catRow (x2 (ix1 b))) o) := by
  unfold val_main_v37
  rw [RowGather.gather_rows_apply gather_S32x256_S2048x1_S2048x256_1_0_n_n_0_1_1256 rfl rfl rfl rfl rfl x8
    (val_main_v36 (F := Ideal) x2) b o (by omega), colL2B x2 b h, clampRow_eq_catRow]

/-! ## The two embeddings -/

/-- The observation's layer. -/
theorem obsLayer (b : Fin 2048) (u : Fin 1) (e : Fin 256) :
    val_main_v3 (F := Ideal) x1 x3 x4 (ix3 b u e) = Spec.obsEmb x1 x3 x4 b e := by
  have hu : u = 0 := Subsingleton.elim _ _
  subst hu
  rw [val_main_v3_apply, val_main_v0_apply, val_main_v2_apply, val_main_v1_apply, Ideal.addf_def]
  unfold Spec.obsEmb
  refine congrArg₂ (· + ·) (Finset.sum_congr rfl fun k _ => ?_) ?_
  · rw [show lidx_main_v0 (ix3 b (0 : Fin 1) e) k = ix3 b (0 : Fin 1) k from funext fun a => Fin.ext (by
        match a with | ⟨0, _⟩ => rfl | ⟨1, _⟩ => rfl | ⟨2, _⟩ => rfl),
      show ridx_main_v0 (ix3 b (0 : Fin 1) e) k = ix2 k e from funext fun a => Fin.ext (by
        match a with | ⟨0, _⟩ => rfl | ⟨1, _⟩ => rfl)]
  · exact congrArg x4 (funext fun a => Fin.ext (by match a with | ⟨0, _⟩ => rfl))

/-- The state's layer, rectified. -/
theorem stateLayer (b : Fin 2048) (u : Fin 1) (e : Fin 256) (h : (x2 (ix1 b)).toNat < 32) :
    val_main_v22 (F := Ideal) x0 x2 x5 x6 (ix3 b u e) = Spec.stateEmb x0 x2 x5 x6 b e := by
  have hu : u = 0 := Subsingleton.elim _ _
  subst hu
  rw [val_main_v22_apply, val_main_v21_apply, val_main_v19_apply, val_main_v20_apply, val_main_call0_v0_apply,
    Ideal.maximumf_def, Ideal.addf_def]
  unfold Spec.stateEmb
  refine congrArg₂ max (congrArg₂ (· + ·) (Finset.sum_congr rfl fun k _ => ?_) ?_) ?_
  · rw [show lidx_main_v19 (ix3 b (0 : Fin 1) e) k = ix3 b (0 : Fin 1) k from funext fun a => Fin.ext (by
        match a with | ⟨0, _⟩ => rfl | ⟨1, _⟩ => rfl | ⟨2, _⟩ => rfl),
      show ridx_main_v19 (ix3 b (0 : Fin 1) e) k = ix3 b k e from funext fun a => Fin.ext (by
        match a with | ⟨0, _⟩ => rfl | ⟨1, _⟩ => rfl | ⟨2, _⟩ => rfl),
      val_main_v4_apply, gatherStateW x2 x5 b k e h,
      show idx_main_v4 (ix3 b (0 : Fin 1) k) = ix2 b k from funext fun a => Fin.ext (by
        match a with | ⟨0, _⟩ => rfl | ⟨1, _⟩ => rfl)]
  · rw [show idx_main_v20 (ix3 b (0 : Fin 1) e) = ix2 b e from funext fun a => Fin.ext (by
        match a with | ⟨0, _⟩ => rfl | ⟨1, _⟩ => rfl)]
    exact gatherStateB x2 x6 b e h
  · exact Ideal.ofBits_zero_f32

/-! ## The joined operand -/

theorem joined_left (b : Fin 2048) (e : Fin 256) :
    val_main_v23 (F := Ideal) x0 x1 x2 x3 x4 x5 x6 (ix3 b (0 : Fin 1) (⟨e.val, by omega⟩ : Fin 512))
      = val_main_v22 (F := Ideal) x0 x2 x5 x6 (ix3 b (0 : Fin 1) e) := by
  unfold val_main_v23
  exact concatenate_pair_apply_left (t := S2048x1x512) (s₁ := S2048x1x256) (s₂ := S2048x1x256) 2 _ _
    concatenates_S2048x1x256_S2048x1x256_S2048x1x512_d2 (ix3 b (0 : Fin 1) (⟨e.val, by omega⟩ : Fin 512)) rfl (ix3 b (0 : Fin 1) e)
    (fun a => by
      match a with | ⟨0, _⟩ => rfl | ⟨1, _⟩ => rfl | ⟨2, _⟩ => rfl)

theorem joined_right (b : Fin 2048) (e : Fin 256) :
    val_main_v23 (F := Ideal) x0 x1 x2 x3 x4 x5 x6 (ix3 b (0 : Fin 1) (⟨256 + e.val, by omega⟩ : Fin 512))
      = val_main_v3 (F := Ideal) x1 x3 x4 (ix3 b (0 : Fin 1) e) := by
  unfold val_main_v23
  exact concatenate_pair_apply_right (t := S2048x1x512) (s₁ := S2048x1x256) (s₂ := S2048x1x256) 2 _ _
    concatenates_S2048x1x256_S2048x1x256_S2048x1x512_d2 (ix3 b (0 : Fin 1) (⟨256 + e.val, by omega⟩ : Fin 512)) rfl rfl
    (ix3 b (0 : Fin 1) e)
    (fun a ha => by
      match a, ha with
      | ⟨0, _⟩, _ => rfl
      | ⟨1, _⟩, _ => rfl
      | ⟨2, _⟩, ha => exact absurd rfl ha)
    (by show e.val + 256 = 256 + e.val; omega)

/-! ## The result -/

/-- THE REFERENCE'S RESULT is the specification's function of its arguments. -/
theorem result_eq (hcat : ∀ b : Fin 2048, (x2 (ix1 b)).toNat < 32) :
    val_main_v40 (F := Ideal) x0 x1 x2 x3 x4 x5 x6 x7 x8 = Spec.G3 x0 x1 x2 x3 x4 x5 x6 x7 x8 := by
  funext i
  obtain ⟨b, u, o, rfl⟩ : ∃ (b : Fin 2048) (u : Fin 1) (o : Fin 256), i = ix3 b u o := ⟨i 0, i 1, i 2, eq_ix3 i⟩
  have hu : u = 0 := Subsingleton.elim _ _
  subst hu
  rw [Spec.G3_apply, val_main_v40_apply, val_main_v38_apply, val_main_v39_apply, Ideal.addf_def]
  unfold Spec.outRow
  refine congrArg₂ (· + ·) ?_ ?_
  · rw [Spec.sum_split_halves]
    refine congrArg₂ (· + ·) (Finset.sum_congr rfl fun e _ => ?_) (Finset.sum_congr rfl fun e _ => ?_)
    · rw [show lidx_main_v38 (ix3 b (0 : Fin 1) o) (⟨e.val, by omega⟩ : Fin 512) = ix3 b (0 : Fin 1) (⟨e.val, by omega⟩ : Fin 512) from
          funext fun a => Fin.ext (by match a with | ⟨0, _⟩ => rfl | ⟨1, _⟩ => rfl | ⟨2, _⟩ => rfl),
        show ridx_main_v38 (ix3 b (0 : Fin 1) o) (⟨e.val, by omega⟩ : Fin 512) = ix3 b (⟨e.val, by omega⟩ : Fin 512) o from
          funext fun a => Fin.ext (by match a with | ⟨0, _⟩ => rfl | ⟨1, _⟩ => rfl | ⟨2, _⟩ => rfl),
        joined_left, stateLayer x0 x2 x5 x6 b 0 e (hcat b), gatherL2W x2 x7 b _ o (hcat b)]
    · rw [show lidx_main_v38 (ix3 b (0 : Fin 1) o) (⟨256 + e.val, by omega⟩ : Fin 512) = ix3 b (0 : Fin 1) (⟨256 + e.val, by omega⟩ : Fin 512) from
          funext fun a => Fin.ext (by match a with | ⟨0, _⟩ => rfl | ⟨1, _⟩ => rfl | ⟨2, _⟩ => rfl),
        show ridx_main_v38 (ix3 b (0 : Fin 1) o) (⟨256 + e.val, by omega⟩ : Fin 512) = ix3 b (⟨256 + e.val, by omega⟩ : Fin 512) o from
          funext fun a => Fin.ext (by match a with | ⟨0, _⟩ => rfl | ⟨1, _⟩ => rfl | ⟨2, _⟩ => rfl),
        joined_right, obsLayer x1 x3 x4 b 0 e, gatherL2W x2 x7 b _ o (hcat b)]
  · rw [show idx_main_v39 (ix3 b (0 : Fin 1) o) = ix2 b o from funext fun a => Fin.ext (by
        match a with | ⟨0, _⟩ => rfl | ⟨1, _⟩ => rfl)]
    exact gatherL2B x2 x8 b o (hcat b)

end Cert.ReferenceIdeal.RefValue

end
-- ==== Proof.PreDecode.lean ====
/-
  What the precondition says about the category labels: every one of the 2048 labels is a number below 32. The printed
  predicate is a conjunction whose last two conjuncts are "all labels are at least zero" and "all labels are below 32",
  each an all-reduction of a signed compare against a splat constant; the conjunction being 1 makes each all-reduction 1,
  and an all-reduction that is 1 had a 1 at every label.
-/
import proofs.«411071_j61821759259471_3_alg».proof.Pre_finite_inputs
import proofs.«411071_j61821759259471_3_alg».proof.Proof.Gen.Pre_finite_inputs
import proofs.«411071_j61821759259471_3_alg».proof.Proof.LibLabelWords
import Idealize.ShloMosaic.Lib.ReduceAll
import Idealize.ShloMosaic.Lib.Affine
import Idealize.ShloMosaic.Lib.ValueIdx
import Idealize.ShloMosaic.Lib.Pipeline.Value

noncomputable section

namespace Cert.PreDecode

open Cert.Pre_finite_inputs Cert.Pre_finite_inputs.Gen Idealize.ShloMosaic Idealize.ShloMosaic.ValueIdx

instance : Subsingleton S_.Idx := ⟨fun a b => funext fun d => d.elim0⟩

/-- Under the precondition, label `b` is a number below 32. -/
theorem label_lt {F : FTy → Type} [FloatOps F] (a0 : FVec F S2048x64 .f32) (a1 : FVec F S2048x1x512 .f32) (a2 : IVec S2048 32)
    (a3 : FVec F S512x256 .f32) (a4 : FVec F S256 .f32) (a5 : FVec F S32x64x256 .f32) (a6 : FVec F S32x256 .f32)
    (a7 : FVec F S32x512x256 .f32) (a8 : FVec F S32x256 .f32)
    (h : fn (F := F) a0 a1 a2 a3 a4 a5 a6 a7 a8 = fun _ => 1#1) (b : Fin 2048) : (a2 (ix1 b)).toNat < 32 := by
  have h0 := congrFun h ix0
  dsimp only [fn, fn_part1, fn_part2] at h0
  obtain ⟨h1, hlt⟩ := IntOp.andi_eq_one.mp h0
  obtain ⟨-, hge⟩ := IntOp.andi_eq_one.mp h1
  have ge := Host.reduce_andi_all _ _ _ _ ix0 hge (ix1 b)
  have lt := Host.reduce_andi_all _ _ _ _ ix0 hlt (ix1 b)
  have c0 : broadcastInDim S2048 ![] bcast_S_S2048 (constantI S_ 32 0#32) (ix1 b) = 0#32 :=
    broadcastInDim_apply _ bcast_S_S2048 _ (ix1 b) ix0 (fun a => a.elim0)
  have c32 : broadcastInDim S2048 ![] bcast_S_S2048 (constantI S_ 32 32#32) (ix1 b) = 32#32 :=
    broadcastInDim_apply _ bcast_S_S2048 _ (ix1 b) ix0 (fun a => a.elim0)
  have ge' : IntOp.cmpi .sge (a2 (ix1 b)) 0#32 = 1#1 := by rw [← c0]; exact ge
  have lt' : IntOp.cmpi .slt (a2 (ix1 b)) (BitVec.ofNat 32 32) = 1#1 := by
    show IntOp.cmpi .slt (a2 (ix1 b)) 32#32 = 1#1
    rw [← c32]; exact lt
  exact LabelWords.toNat_lt_of_sge_slt _ 32 (by omega) ge' lt'

end Cert.PreDecode

end
-- ==== Proof.lean ====
/-
  A batch of 2048 samples, each with a category label, a 64-entry state and a 512-entry observation. Each category has its
  own linear layer on the state (rectified) and its own last linear layer on the state embedding joined with a shared
  observation embedding; the result at (b, o) is
    ((∑ e, stateEmb b e · l2W c(b) e o) + (∑ e, obsEmb b e · l2W c(b) (256 + e) o)) + l2B c(b) o.

  The reference gathers each sample's category's weights and multiplies. The kernel never gathers weights: it lays each
  sample's features into the columns of its category's group (a one-hot selector over 32 groups, times the features tiled
  32 times) and multiplies against the table with the category axis merged into the rows. The selector keeps one group,
  so the product is the sum over that category's rows only; the groups the selector clears contribute 0 · w = 0, which
  holds for every extended real w, so no finiteness is used. The state is padded from 64 to 128 columns with zeros on both
  sides of its product, and those terms are 0 · 0 = 0.

  The two programs treat a label outside 0 … 31 differently (the kernel clamps it first, the reference wraps a negative
  one around), so the claim is stated, and proved, for labels in 0 … 31: the precondition's last two conjuncts.

  Frames of the two kernel programs: the generated frame certificates. Frame of the reference: its generated run with the
  result dropped. `preserves`: the idealization rewrote nothing. `algebraic`: the kernel's run ends at `Spec.G3` of its
  arguments (KernelRun), the reference's at `Spec.G3` of its own (RefValue over the generated run), and the arguments agree.
-/
import proofs.«411071_j61821759259471_3_alg».proof.Defs
import proofs.«411071_j61821759259471_3_alg».proof.Proof.Gen.Kernel
import proofs.«411071_j61821759259471_3_alg».proof.Proof.Gen.Kernel.Skeleton
import proofs.«411071_j61821759259471_3_alg».proof.Proof.Gen.Kernel.Launch
import proofs.«411071_j61821759259471_3_alg».proof.Proof.Gen.Kernel.Points
import proofs.«411071_j61821759259471_3_alg».proof.Proof.Gen.Kernel.Frame
import proofs.«411071_j61821759259471_3_alg».proof.Proof.Gen.KernelIdeal
import proofs.«411071_j61821759259471_3_alg».proof.Proof.Gen.KernelIdeal.Skeleton
import proofs.«411071_j61821759259471_3_alg».proof.Proof.Gen.KernelIdeal.Launch
import proofs.«411071_j61821759259471_3_alg».proof.Proof.Gen.KernelIdeal.Points
import proofs.«411071_j61821759259471_3_alg».proof.Proof.Gen.KernelIdeal.Frame
import proofs.«411071_j61821759259471_3_alg».proof.Proof.Gen.ReferenceIdeal
import proofs.«411071_j61821759259471_3_alg».proof.Proof.Gen.Pre_finite_inputs
import proofs.«411071_j61821759259471_3_alg».proof.Proof.Gen.ReferenceIdeal.Run
import proofs.«411071_j61821759259471_3_alg».proof.Proof.Gen.ReferenceIdeal.Read
import proofs.«411071_j61821759259471_3_alg».proof.Proof.KernelRun
import proofs.«411071_j61821759259471_3_alg».proof.Proof.RefValue
import proofs.«411071_j61821759259471_3_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the one function of arguments that agree. -/
theorem algebraic : Cert.algebraic_KernelIdeal_ReferenceIdeal := by
  intro m ρ m' ρ' hpre hagree
  -- every label is a number below 32, on the kernel's memory and so on the reference's
  have hcat : ∀ (c : Dev Cert.KernelIdeal.nD) (b : Fin 2048),
      (Cert.KernelIdeal.HostArrays.aCat m c (ix1 b)).toNat < 32 := fun c b =>
    Cert.PreDecode.label_lt (F := Ideal) _ _ _ _ _ _ _ _ _ (hpre c) b
  refine ⟨fun c => Cert.KernelIdeal.KernelRun.returnedOf m c, Cert.KernelIdeal.KernelRun.run m ρ hcat, ?_⟩
  refine (θ_run Cert.ReferenceIdeal.defs _ _).mono (fun _ h c => ⟨(h c).1.trans ?_, (h c).2⟩)
    (Cert.ReferenceIdeal.Value.run (F := Ideal) m' ρ')
  have hcat' : ∀ b : Fin 2048, (m' ((c.tc : Thread Cert.ReferenceIdeal.nD Cert.ReferenceIdeal.τ).loc Cert.ReferenceIdeal.main_arg2) (ix1 b)).toNat < 32 :=
    fun b => by rw [(hagree c).2.2.1]; exact hcat c b
  refine (Cert.ReferenceIdeal.Read.val_main_v40_eq (F := Ideal) _ _ _ _ _ _ _ _ _).trans ?_
  refine (Cert.ReferenceIdeal.RefValue.result_eq _ _ _ _ _ _ _ _ _ hcat').trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
